-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v48_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x64 : Shape := ⟨2, ![500000, 64]⟩
abbrev S2000000x64 : Shape := ⟨2, ![2000000, 64]⟩
abbrev S1000000x32 : Shape := ⟨2, ![1000000, 32]⟩
abbrev S500000 : Shape := ⟨1, ![500000]⟩
abbrev S2000000 : Shape := ⟨1, ![2000000]⟩
abbrev S1000000 : Shape := ⟨1, ![1000000]⟩
abbrev S128x64 : Shape := ⟨2, ![128, 64]⟩
abbrev S64 : Shape := ⟨1, ![64]⟩
abbrev S64x64 : Shape := ⟨2, ![64, 64]⟩
abbrev S32x64 : Shape := ⟨2, ![32, 64]⟩
abbrev S256x64 : Shape := ⟨2, ![256, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S2000000x64 : S_.BroadcastsInDim S2000000x64 (![] : Fin 0 → Fin S2000000x64.rank)
  reducesTo_S2000000x64_S_d0_1 : S2000000x64.ReducesTo [0, 1] S_
  bcast_S_S1000000x32 : S_.BroadcastsInDim S1000000x32 (![] : Fin 0 → Fin S1000000x32.rank)
  reducesTo_S1000000x32_S_d0_1 : S1000000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg17 : FVec F S64x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S64x64 .f32 := Host.absf main_arg17
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg19
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg20
  let main_cst_32 : FVec F S_ .f32 := constant S_ .f32 0x7F800000#32
  fn_part5 (F := F) main_v83 main_v84 main_cst_32

def fn_part3 {F : FTy → Type} [FloatOps F] (main_arg14 : FVec F S64 .f32) (main_arg15 : FVec F S256x64 .f32) (main_arg16 : FVec F S64 .f32) (main_arg17 : FVec F S64x64 .f32) (main_arg18 : FVec F S64 .f32) (main_arg19 : FVec F S64x1 .f32) (main_arg20 : FVec F S1 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg15
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_arg20 main_v63 main_v67

def fn_part2 {F : FTy → Type} [FloatOps F] (main_arg10 : FVec F S64 .f32) (main_arg11 : FVec F S64x64 .f32) (main_arg12 : FVec F S64 .f32) (main_arg13 : FVec F S32x64 .f32) (main_arg14 : FVec F S64 .f32) (main_arg15 : FVec F S256x64 .f32) (main_arg16 : FVec F S64 .f32) (main_arg17 : FVec F S64x64 .f32) (main_arg18 : FVec F S64 .f32) (main_arg19 : FVec F S64x1 .f32) (main_arg20 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S32x64 .f32 := Host.absf main_arg13
  let main_cst_18 : FVec F S_ .f32 := constant S_ .f32 0x7F800000#32
  let main_v50 : FVec F S32x64 .f32 := broadcastInDim S32x64 ![] bcast_S_S32x64 main_cst_18
  fn_part3 (F := F) main_arg14 main_arg15 main_arg16 main_arg17 main_arg18 main_arg19 main_arg20 main_v48 main_v49 main_v50

def fn_part1 {F : FTy → Type} [FloatOps F] (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S32x64 .f32) (main_arg14 : FVec F S64 .f32) (main_arg15 : FVec F S256x64 .f32) (main_arg16 : FVec F S64 .f32) (main_arg17 : FVec F S64x64 .f32) (main_arg18 : FVec F S64 .f32) (main_arg19 : FVec F S64x1 .f32) (main_arg20 : FVec F S1 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S100000x128 .f32) (main_arg1 : FVec F S500000x64 .f32) (main_arg2 : FVec F S2000000x64 .f32) (main_arg3 : FVec F S1000000x32 .f32) (main_arg4 : IVec S500000 32) (main_arg5 : IVec S2000000 32) (main_arg6 : IVec S1000000 32) (main_arg7 : FVec F S128x64 .f32) (main_arg8 : FVec F S64 .f32) (main_arg9 : FVec F S64x64 .f32) (main_arg10 : FVec F S64 .f32) (main_arg11 : FVec F S64x64 .f32) (main_arg12 : FVec F S64 .f32) (main_arg13 : FVec F S32x64 .f32) (main_arg14 : FVec F S64 .f32) (main_arg15 : FVec F S256x64 .f32) (main_arg16 : FVec F S64 .f32) (main_arg17 : FVec F S64x64 .f32) (main_arg18 : FVec F S64 .f32) (main_arg19 : FVec F S64x1 .f32) (main_arg20 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S2000000x64 .f32 := Host.absf main_arg2
  let main_cst_2 : FVec F S_ .f32 := constant S_ .f32 0x7F800000#32
  let main_v10 : FVec F S2000000x64 .f32 := broadcastInDim S2000000x64 ![] bcast_S_S2000000x64 main_cst_2
  let main_v11 : IVec S2000000x64 1 := cmpf .olt main_v9 main_v10
  let main_c_3 : IVec S_ 1 := constantI S_ 1 1#1
  let main_v12 : IVec S_ 1 := (fun x v => Host.reduce IntOp.andi x v reducesTo_S2000000x64_S_d0_1 h_S_) main_v11 main_c_3
  let main_v13 : IVec S_ 1 := andi main_v8 main_v12
  let main_v14 : FVec F S1000000x32 .f32 := Host.absf main_arg3
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S500000x64 : Shape := ⟨2, ![500000, 64]⟩
abbrev S2000000x64 : Shape := ⟨2, ![2000000, 64]⟩
abbrev S1000000x32 : Shape := ⟨2, ![1000000, 32]⟩
abbrev S500000 : Shape := ⟨1, ![500000]⟩
abbrev S2000000 : Shape := ⟨1, ![2000000]⟩
abbrev S1000000 : Shape := ⟨1, ![1000000]⟩
abbrev S128x64 : Shape := ⟨2, ![128, 64]⟩
abbrev S64 : Shape := ⟨1, ![64]⟩
abbrev S64x64 : Shape := ⟨2, ![64, 64]⟩
abbrev S32x64 : Shape := ⟨2, ![32, 64]⟩
abbrev S256x64 : Shape := ⟨2, ![256, 64]⟩
abbrev S64x1 : Shape := ⟨2, ![64, 1]⟩
abbrev S1 : Shape := ⟨1, ![1]⟩
abbrev S1x64 : Shape := ⟨2, ![1, 64]⟩
abbrev S100000x64 : Shape := ⟨2, ![100000, 64]⟩
abbrev S20000x128 : Shape := ⟨2, ![20000, 128]⟩
abbrev S20000x64 : Shape := ⟨2, ![20000, 64]⟩
abbrev S1000000x64 : Shape := ⟨2, ![1000000, 64]⟩
abbrev S20000x32 : Shape := ⟨2, ![20000, 32]⟩
abbrev S_ : Shape := ⟨0, ![]⟩
abbrev S500000x1 : Shape := ⟨2, ![500000, 1]⟩
abbrev S100000x1 : Shape := ⟨2, ![100000, 1]⟩
abbrev S2000000x1 : Shape := ⟨2, ![2000000, 1]⟩
abbrev S1000000x1 : Shape := ⟨2, ![1000000, 1]⟩
abbrev S1x1 : Shape := ⟨2, ![1, 1]⟩
abbrev S10000x64 : Shape := ⟨2, ![10000, 64]⟩
abbrev S10000x1 : Shape := ⟨2, ![10000, 1]⟩
abbrev S100000 : Shape := ⟨1, ![100000]⟩

abbrev nBuf : Space → Nat
  | .hbm => 84
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S500000x64, .f32⟩
  | .hbm, ⟨2, _⟩ => ⟨S2000000x64, .f32⟩
  | .hbm, ⟨3, _⟩ => ⟨S1000000x32, .f32⟩
  | .hbm, ⟨4, _⟩ => ⟨S500000, .i32⟩
  | .hbm, ⟨5, _⟩ => ⟨S2000000, .i32⟩
  | .hbm, ⟨6, _⟩ => ⟨S1000000, .i32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S32x64, .f32⟩
  | .hbm, ⟨14, _⟩ => ⟨S64, .f32⟩
  | .hbm, ⟨15, _⟩ => ⟨S256x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S1x64, .f32⟩
  | .hbm, ⟨22, _⟩ => ⟨S100000x64, .f32⟩
  | .hbm, ⟨23, _⟩ => ⟨S1x64, .f32⟩
  | .hbm, ⟨24, _⟩ => ⟨S500000x64, .f32⟩
  | .hbm, ⟨25, _⟩ => ⟨S1x64, .f32⟩
  | .hbm, ⟨26, _⟩ => ⟨S2000000x64, .f32⟩
  | .hbm, ⟨27, _⟩ => ⟨S1x64, .f32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S500000x1, .i32⟩
  | .hbm, ⟨32, _⟩ => ⟨S100000x64, .f32⟩
  | .hbm, ⟨33, _⟩ => ⟨S_, .f32⟩
  | .hbm, ⟨34, _⟩ => ⟨S500000x1, .f32⟩
  | .hbm, ⟨35, _⟩ => ⟨S_, .f32⟩
  | .hbm, ⟨36, _⟩ => ⟨S100000x1, .f32⟩
  | .hbm, ⟨37, _⟩ => ⟨S500000x1, .i32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S2000000x1, .i32⟩
  | .hbm, ⟨47, _⟩ => ⟨S100000x64, .f32⟩
  | .hbm, ⟨48, _⟩ => ⟨S_, .f32⟩
  | .hbm, ⟨49, _⟩ => ⟨S2000000x1, .f32⟩
  | .hbm, ⟨50, _⟩ => ⟨S_, .f32⟩
  | .hbm, ⟨51, _⟩ => ⟨S100000x1, .f32⟩
  | .hbm, ⟨52, _⟩ => ⟨S2000000x1, .i32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S_, .f32⟩
  | .hbm, ⟨64, _⟩ => ⟨S1000000x1, .f32⟩
  | .hbm, ⟨65, _⟩ => ⟨S_, .f32⟩
  | .hbm, ⟨66, _⟩ => ⟨S100000x1, .f32⟩
  | .hbm, ⟨67, _⟩ => ⟨S1000000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S1x64, .f32⟩
  | .hbm, ⟨79, _⟩ => ⟨S1x64, .f32⟩
  | .hbm, ⟨80, _⟩ => ⟨S1x1, .f32⟩
  | .hbm, ⟨81, _⟩ => ⟨S100000x64, .f32⟩
  | .hbm, ⟨82, _⟩ => ⟨S100000x1, .f32⟩
  | .hbm, ⟨83, _⟩ => ⟨S100000, .f32⟩
  | .local _ .vmem, ⟨0, _⟩ => ⟨S20000x128, .f32⟩
  | .local _ .vmem, ⟨1, _⟩ => ⟨S20000x128, .f32⟩
  | .local _ .vmem, ⟨2, _⟩ => ⟨S128x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S64x64, .f32⟩
  | .local _ .vmem, ⟨9, _⟩ => ⟨S1x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S20000x64, .f32⟩
  | .local _ .vmem, ⟨14, _⟩ => ⟨S64x64, .f32⟩
  | .local _ .vmem, ⟨15, _⟩ => ⟨S1x64, .f32⟩
  | .local _ .vmem, ⟨16, _⟩ => ⟨S20000x64, .f32⟩
  | .local _ .vmem, ⟨17, _⟩ => ⟨S20000x64, .f32⟩
  | .local _ .vmem, ⟨18, _⟩ => ⟨S20000x32, .f32⟩
  | .local _ .vmem, ⟨19, _⟩ => ⟨S20000x32, .f32⟩
  | .local _ .vmem, ⟨20, _⟩ => ⟨S32x64, .f32⟩
  | .local _ .vmem, ⟨21, _⟩ => ⟨S1x64, .f32⟩
  | .local _ .vmem, ⟨22, _⟩ => ⟨S20000x64, .f32⟩
  | .local _ .vmem, ⟨23, _⟩ => ⟨S20000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S64x64, .f32⟩
  | .local _ .vmem, ⟨34, _⟩ => ⟨S64x64, .f32⟩
  | .local _ .vmem, ⟨35, _⟩ => ⟨S64x64, .f32⟩
  | .local _ .vmem, ⟨36, _⟩ => ⟨S1x64, .f32⟩
  | .local _ .vmem, ⟨37, _⟩ => ⟨S64x64, .f32⟩
  | .local _ .vmem, ⟨38, _⟩ => ⟨S1x64, .f32⟩
  | .local _ .vmem, ⟨39, _⟩ => ⟨S64x1, .f32⟩
  | .local _ .vmem, ⟨40, _⟩ => ⟨S1x1, .f32⟩
  | .local _ .vmem, ⟨41, _⟩ => ⟨S10000x64, .f32⟩
  | .local _ .vmem, ⟨42, _⟩ => ⟨S10000x64, .f32⟩
  | .local _ .vmem, ⟨43, _⟩ => ⟨S10000x1, .f32⟩
  | .local _ .vmem, ⟨44, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_cst_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_cst_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48_0 : Ref sig .tc := ⟨.hbm, 81, rfl⟩
abbrev main_v48_1 : Ref sig .tc := ⟨.hbm, 82, rfl⟩
abbrev main_v49 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg10_0 : Ref sig .tc := ⟨.vmem, 38, rfl⟩
abbrev cc4_stg11_0 : Ref sig .tc := ⟨.vmem, 39, rfl⟩
abbrev cc4_stg12_0 : Ref sig .tc := ⟨.vmem, 40, rfl⟩
abbrev cc4_stg13_0 : Ref sig .tc := ⟨.vmem, 41, rfl⟩
abbrev cc4_stg13_1 : Ref sig .tc := ⟨.vmem, 42, rfl⟩
abbrev cc4_stg14_0 : Ref sig .tc := ⟨.vmem, 43, rfl⟩
abbrev cc4_stg14_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem8_0 : DmaSem sig := 36
abbrev cc4_sem9_0 : DmaSem sig := 37
abbrev cc4_sem10_0 : DmaSem sig := 38
abbrev cc4_sem11_0 : DmaSem sig := 39
abbrev cc4_sem12_0 : DmaSem sig := 40
abbrev cc4_sem13_0 : DmaSem sig := 41
abbrev cc4_sem13_1 : DmaSem sig := 42
abbrev cc4_sem14_0 : DmaSem sig := 43
abbrev cc4_sem14_1 : DmaSem sig := 44

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S20000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S10000x64 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S10000x1 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

class Facts₀ : Prop where
  shapeCasts_S64_S1x64 : S64.ShapeCasts S1x64
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  inb_S64x64_S64x64_0_0 : ∀ a, (![0, 0] : Fin 2 → Nat) a + S64x64.size a ≤ S64x64.size a
  h_S64x64 : 0 < S64x64.numel
  inb_S20000x32_S20000x32_0_0 : ∀ a, (![0, 0] : Fin 2 → Nat) a + S20000x32.size a ≤ S20000x32.size a
  h_S20000x32 : 0 < S20000x32.numel
  inb_S32x64_S32x64_0_0 : ∀ a, (![0, 0] : Fin 2 → Nat) a + S32x64.size a ≤ S32x64.size a
  h_S32x64 : 0 < S32x64.numel
  bcast_S_S100000x64 : S_.BroadcastsInDim S100000x64 (![] : Fin 0 → Fin S100000x64.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S64x64_S64x64 : S64x64.ShapeCasts S64x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  dot_S20000x128_S128x64_S20000x64_1_0_0_1_n_n_wf : DotDims.WF S20000x128 S128x64 S20000x64 [1] [0] [0] [1] [] []
  dot_S20000x64_S64x64_S20000x64_1_0_0_1_n_n_wf : DotDims.WF S20000x64 S64x64 S20000x64 [1] [0] [0] [1] [] []
  dot_S20000x32_S32x64_S20000x64_1_0_0_1_n_n_wf : DotDims.WF S20000x32 S32x64 S20000x64 [1] [0] [0] [1] [] []
  scatter_S100000x64_S500000x1_S500000x64_1_0_0_1_wf : ScatterDims.WF S100000x64 S500000x1 S500000x64 [1] [0] [0] 1
  scatter_S100000x1_S500000x1_S500000x1_1_0_0_1_wf : ScatterDims.WF S100000x1 S500000x1 S500000x1 [1] [0] [0] 1
  scatter_S100000x64_S2000000x1_S2000000x64_1_0_0_1_wf : ScatterDims.WF S100000x64 S2000000x1 S2000000x64 [1] [0] [0] 1
  scatter_S100000x1_S2000000x1_S2000000x1_1_0_0_1_wf : ScatterDims.WF S100000x1 S2000000x1 S2000000x1 [1] [0] [0] 1
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S500000x64.size a
  hwx1_0 : ∀ i : grid1.Coords, EltTy.bits .f32 = 32 ∨ (Rect.block (s := S500000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S500000x64.size a
  hwx1_3 : ∀ i : grid1.Coords, EltTy.bits .f32 = 32 ∨ (Rect.block (s := S500000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S2000000x64.size a
  hwx2_0 : ∀ i : grid2.Coords, EltTy.bits .f32 = 32 ∨ (Rect.block (s := S2000000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S2000000x64.size a
  hwx2_3 : ∀ i : grid2.Coords, EltTy.bits .f32 = 32 ∨ (Rect.block (s := S2000000x64) S20000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S1000000x32.size a
  hwx3_0 : ∀ i : grid3.Coords, EltTy.bits .f32 = 32 ∨ (Rect.block (s := S1000000x32) S20000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20000x64.size a ≤ S1000000x64.size a
  hwx3_3 : ∀ i : grid3.Coords, EltTy.bits .f32 = 32 ∨ (Rect.block (s := S1000000x64) S20000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x64.size a ≤ S64x64.size a
  hwx4_9 : ∀ i : grid4.Coords, EltTy.bits .f32 = 32 ∨ (Rect.block (s := S64x64) S64x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S64x1.size a ≤ S64x1.size a
  hwx4_11 : ∀ i : grid4.Coords, EltTy.bits .f32 = 32 ∨ (Rect.block (s := S64x1) S64x1.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x1.size a ≤ S1x1.size a
  hwx4_12 : ∀ i : grid4.Coords, EltTy.bits .f32 = 32 ∨ (Rect.block (s := S1x1) S1x1.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S10000x64.size a ≤ S100000x64.size a
  hwx4_13 : ∀ i : grid4.Coords, EltTy.bits .f32 = 32 ∨ (Rect.block (s := S100000x64) S10000x64.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S10000x1.size a ≤ S100000x1.size a
  hwx4_14 : ∀ i : grid4.Coords, EltTy.bits .f32 = 32 ∨ (Rect.block (s := S100000x1) S10000x1.size (cc4_transform_14 i) (hinb4_14 i)).WholeWords (EltTy.packing .f32)

variable [Facts₀]

def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S20000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S20000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v40) S10000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v41) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v42) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v43) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v44) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v45) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg17) S64x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v46) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg19) S64x1.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v47) S1x1.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v48_0) S10000x64.size cc4_transform_13 reads4_13 true false 2 stage4_13 sem4_13
    hrank4 hreads4_13 hinb4_13 nbuf4_13 (Memref.isWhole_whole _) hwx4_13 hstage4_13

abbrev win4_14 : Pipeline.Window sig grid4 :=
  Pipeline.Window.ofSpec (Memref.whole main_v48_1) S10000x1.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

class Facts : Prop extends Facts₀ where

variable [Facts]
-- ==== ReferenceIdeal.lean ====
abbrev S100000x128 : Shape := ⟨2, ![100000, 128]⟩
abbrev S500000x64 : Shape := ⟨2, ![500000, 64]⟩
abbrev S2000000x64 : Shape := ⟨2, ![2000000, 64]⟩
abbrev S1000000x32 : Shape := ⟨2, ![1000000, 32]⟩
abbrev S500000 : Shape := ⟨1, ![500000]⟩
abbrev S2000000 : Shape := ⟨1, ![2000000]⟩
abbrev S1000000 : Shape := ⟨1, ![1000000]⟩
abbrev S128x64 : Shape := ⟨2, ![128, 64]⟩
abbrev S64 : Shape := ⟨1, ![64]⟩
abbrev S64x64 : Shape := ⟨2, ![64, 64]⟩
abbrev S32x64 : Shape := ⟨2, ![32, 64]⟩
abbrev S256x64 : Shape := ⟨2, ![256, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S1000000x64 : Shape := ⟨2, ![1000000, 64]⟩
abbrev S500000x1 : Shape := ⟨2, ![500000, 1]⟩
abbrev S100000x1 : Shape := ⟨2, ![100000, 1]⟩
abbrev S2000000x1 : Shape := ⟨2, ![2000000, 1]⟩
abbrev S1000000x1 : Shape := ⟨2, ![1000000, 1]⟩
abbrev S100000x256 : Shape := ⟨2, ![100000, 256]⟩
abbrev S1x1 : Shape := ⟨2, ![1, 1]⟩
abbrev S100000 : Shape := ⟨1, ![100000]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x64, .f32⟩
  | .hbm, ⟨2, _⟩ => ⟨S2000000x64, .f32⟩
  | .hbm, ⟨3, _⟩ => ⟨S1000000x32, .f32⟩
  | .hbm, ⟨4, _⟩ => ⟨S500000, .i32⟩
  | .hbm, ⟨5, _⟩ => ⟨S2000000, .i32⟩
  | .hbm, ⟨6, _⟩ => ⟨S1000000, .i32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S32x64, .f32⟩
  | .hbm, ⟨14, _⟩ => ⟨S64, .f32⟩
  | .hbm, ⟨15, _⟩ => ⟨S256x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x1, .f32⟩
  | .hbm, ⟨20, _⟩ => ⟨S1, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S500000x64, .f32⟩
  | .hbm, ⟨29, _⟩ => ⟨S1x64, .f32⟩
  | .hbm, ⟨30, _⟩ => ⟨S500000x64, .f32⟩
  | .hbm, ⟨31, _⟩ => ⟨S500000x64, .f32⟩
  | .hbm, ⟨32, _⟩ => ⟨S_, .f32⟩
  | .hbm, ⟨33, _⟩ => ⟨S500000x64, .f32⟩
  | .hbm, ⟨34, _⟩ => ⟨S500000x64, .f32⟩
  | .hbm, ⟨35, _⟩ => ⟨S2000000x64, .f32⟩
  | .hbm, ⟨36, _⟩ => ⟨S1x64, .f32⟩
  | .hbm, ⟨37, _⟩ => ⟨S2000000x64, .f32⟩
  | .hbm, ⟨38, _⟩ => ⟨S2000000x64, .f32⟩
  | .hbm, ⟨39, _⟩ => ⟨S_, .f32⟩
  | .hbm, ⟨40, _⟩ => ⟨S2000000x64, .f32⟩
  | .hbm, ⟨41, _⟩ => ⟨S2000000x64, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S_, .f32⟩
  | .hbm, ⟨47, _⟩ => ⟨S1000000x64, .f32⟩
  | .hbm, ⟨48, _⟩ => ⟨S1000000x64, .f32⟩
  | .hbm, ⟨49, _⟩ => ⟨S_, .f32⟩
  | .hbm, ⟨50, _⟩ => ⟨S100000x64, .f32⟩
  | .hbm, ⟨51, _⟩ => ⟨S500000x1, .i32⟩
  | .hbm, ⟨52, _⟩ => ⟨S100000x64, .f32⟩
  | .hbm, ⟨53, _⟩ => ⟨S_, .f32⟩
  | .hbm, ⟨54, _⟩ => ⟨S500000x1, .f32⟩
  | .hbm, ⟨55, _⟩ => ⟨S_, .f32⟩
  | .hbm, ⟨56, _⟩ => ⟨S100000x1, .f32⟩
  | .hbm, ⟨57, _⟩ => ⟨S500000x1, .i32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S2000000x1, .i32⟩
  | .hbm, ⟨67, _⟩ => ⟨S100000x64, .f32⟩
  | .hbm, ⟨68, _⟩ => ⟨S_, .f32⟩
  | .hbm, ⟨69, _⟩ => ⟨S2000000x1, .f32⟩
  | .hbm, ⟨70, _⟩ => ⟨S_, .f32⟩
  | .hbm, ⟨71, _⟩ => ⟨S100000x1, .f32⟩
  | .hbm, ⟨72, _⟩ => ⟨S2000000x1, .i32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S1000000x1, .i32⟩
  | .hbm, ⟨82, _⟩ => ⟨S100000x64, .f32⟩
  | .hbm, ⟨83, _⟩ => ⟨S_, .f32⟩
  | .hbm, ⟨84, _⟩ => ⟨S1000000x1, .f32⟩
  | .hbm, ⟨85, _⟩ => ⟨S_, .f32⟩
  | .hbm, ⟨86, _⟩ => ⟨S100000x1, .f32⟩
  | .hbm, ⟨87, _⟩ => ⟨S1000000x1, .i32⟩
  | .hbm, ⟨88, _⟩ => ⟨S100000x1, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S100000x256, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call2_cst : Ref sig .tc := ⟨.hbm, 39, rfl⟩
abbrev main_call2_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call3_cst : Ref sig .tc := ⟨.hbm, 46, rfl⟩
abbrev main_call3_v0 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_0 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_4 : Ref sig .tc := ⟨.hbm, 68, rfl⟩
abbrev main_v34 : Ref sig .tc := ⟨.hbm, 69, rfl⟩
abbrev main_cst_5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_6 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_7 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_cst_9 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_10 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call4_cst : Ref sig .tc := ⟨.hbm, 99, rfl⟩
abbrev main_call4_v0 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_call5_cst : Ref sig .tc := ⟨.hbm, 106, rfl⟩
abbrev main_call5_v0 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  concatenates_S100000x64_S100000x64_S100000x64_S100000x64_S100000x256_d1 : Shape.Concatenates [S100000x64, S100000x64, S100000x64, S100000x64] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  dot_S500000x64_S64x64_S500000x64_1_0_0_1_n_n_wf : DotDims.WF S500000x64 S64x64 S500000x64 [1] [0] [0] [1] [] []
  dot_S2000000x64_S64x64_S2000000x64_1_0_0_1_n_n_wf : DotDims.WF S2000000x64 S64x64 S2000000x64 [1] [0] [0] [1] [] []
  dot_S1000000x32_S32x64_S1000000x64_1_0_0_1_n_n_wf : DotDims.WF S1000000x32 S32x64 S1000000x64 [1] [0] [0] [1] [] []
  scatter_S100000x64_S500000x1_S500000x64_1_0_0_1_wf : ScatterDims.WF S100000x64 S500000x1 S500000x64 [1] [0] [0] 1
  scatter_S100000x1_S500000x1_S500000x1_1_0_0_1_wf : ScatterDims.WF S100000x1 S500000x1 S500000x1 [1] [0] [0] 1
  scatter_S100000x64_S2000000x1_S2000000x64_1_0_0_1_wf : ScatterDims.WF S100000x64 S2000000x1 S2000000x64 [1] [0] [0] 1
  scatter_S100000x1_S2000000x1_S2000000x1_1_0_0_1_wf : ScatterDims.WF S100000x1 S2000000x1 S2000000x1 [1] [0] [0] 1
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The layers of the network, index by index, over the extended reals.

  A dense layer sends a matrix x (M rows, K columns), a weight w (K by N) and a bias b (N entries) to the matrix whose
  entry (p, q) is the sum over κ of x (p, κ) * w (κ, q), plus b q; a rectifier replaces each entry by its maximum
  with zero. The fusing layer adds four such products, one per block of 64 rows of a 256-row weight, before the bias.
  A sum over 256 indices is the sum of its four consecutive stretches of 64, which is what joins a product with the
  four inputs laid side by side to the four separate products.
-/
import Idealize.ShloMosaic.PureOps.Ideal.Laws
import Idealize.ShloMosaic.Lib.ValueIdx

noncomputable section

open scoped BigOperators

namespace Cert.Spec
open Idealize.ShloMosaic Idealize.ShloMosaic.ValueIdx

/-- x·w + b: entry (p, q) is the sum over κ of x (p, κ) * w (κ, q), plus b q. -/
def affine {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => (∑ κ : Fin K, x (ix2 (i 0) κ) * w (ix2 κ (i 1))) + b (ix1 (i 1))

/-- The rectifier, entry by entry. -/
def relu {s : Shape} (v : FVec Ideal s .f32) : FVec Ideal s .f32 := fun i => max (v i) 0

/-- A dense layer followed by the rectifier. -/
def dense {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  relu (affine x w b)

theorem affine_apply {M K N : Nat} (x : FVec Ideal ⟨2, ![M, K]⟩ .f32) (w : FVec Ideal ⟨2, ![K, N]⟩ .f32)
    (b : FVec Ideal ⟨1, ![N]⟩ .f32) (p : Fin M) (q : Fin N) :
    affine x w b (ix2 p q) = (∑ κ : Fin K, x (ix2 p κ) * w (ix2 κ q)) + b (ix1 q) := rfl

theorem dense_apply {M K N : Nat} (x : FVec Ideal ⟨2, ![M, K]⟩ .f32) (w : FVec Ideal ⟨2, ![K, N]⟩ .f32)
    (b : FVec Ideal ⟨1, ![N]⟩ .f32) (p : Fin M) (q : Fin N) :
    dense x w b (ix2 p q) = max ((∑ κ : Fin K, x (ix2 p κ) * w (ix2 κ q)) + b (ix1 q)) 0 := rfl

/-- Rows o, …, o + 63 of a matrix of 256 rows. -/
def rows {N : Nat} (w : FVec Ideal ⟨2, ![256, N]⟩ .f32) (o : Nat) (ho : o + 64 ≤ 256) : FVec Ideal ⟨2, ![64, N]⟩ .f32 :=
  fun i => w (ix2 (⟨o + (i 0).val, by have h : (i 0).val < 64 := (i 0).isLt; omega⟩ : Fin 256) (i 1))

theorem rows_apply {N : Nat} (w : FVec Ideal ⟨2, ![256, N]⟩ .f32) (o : Nat) (ho : o + 64 ≤ 256) (κ : Fin 64) (q : Fin N) :
    rows w o ho (ix2 κ q) = w (ix2 (⟨o + κ.val, by have := κ.isLt; omega⟩ : Fin 256) q) := rfl

/-- The fusing layer: four products added in order, then the bias, then the rectifier. -/
def fuse {M N : Nat} (u s t f : FVec Ideal ⟨2, ![M, 64]⟩ .f32) (wu ws wt wf : FVec Ideal ⟨2, ![64, N]⟩ .f32)
    (b : FVec Ideal ⟨1, ![N]⟩ .f32) : FVec Ideal ⟨2, ![M, N]⟩ .f32 :=
  fun i => max (((((∑ κ : Fin 64, u (ix2 (i 0) κ) * wu (ix2 κ (i 1))) + ∑ κ : Fin 64, s (ix2 (i 0) κ) * ws (ix2 κ (i 1)))
      + ∑ κ : Fin 64, t (ix2 (i 0) κ) * wt (ix2 κ (i 1))) + ∑ κ : Fin 64, f (ix2 (i 0) κ) * wf (ix2 κ (i 1))) + b (ix1 (i 1))) 0

theorem fuse_apply {M N : Nat} (u s t f : FVec Ideal ⟨2, ![M, 64]⟩ .f32) (wu ws wt wf : FVec Ideal ⟨2, ![64, N]⟩ .f32)
    (b : FVec Ideal ⟨1, ![N]⟩ .f32) (p : Fin M) (q : Fin N) :
    fuse u s t f wu ws wt wf b (ix2 p q)
      = max (((((∑ κ : Fin 64, u (ix2 p κ) * wu (ix2 κ q)) + ∑ κ : Fin 64, s (ix2 p κ) * ws (ix2 κ q))
      + ∑ κ : Fin 64, t (ix2 p κ) * wt (ix2 κ q)) + ∑ κ : Fin 64, f (ix2 p κ) * wf (ix2 κ q)) + b (ix1 q)) 0 := rfl

/-- The one row of a one-row matrix as a vector. -/
def firstRow {N : Nat} (b2 : FVec Ideal ⟨2, ![1, N]⟩ .f32) : FVec Ideal ⟨1, ![N]⟩ .f32 := fun j => b2 (ix2 (0 : Fin 1) (j 0))

theorem firstRow_apply {N : Nat} (b2 : FVec Ideal ⟨2, ![1, N]⟩ .f32) (q : Fin N) : firstRow b2 (ix1 q) = b2 (ix2 (0 : Fin 1) q) := rfl

/-- The column of a one-column matrix as a vector. -/
def column {M : Nat} (v : FVec Ideal ⟨2, ![M, 1]⟩ .f32) : FVec Ideal ⟨1, ![M]⟩ .f32 := fun j => v (ix2 (j 0) (0 : Fin 1))

/-- A sum over m + n indices is the sum over the first m plus the sum over the last n. -/
theorem sum_fin_add {m n : Nat} (g : Fin (m + n) → EReal) :
    ∑ k, g k = (∑ κ : Fin m, g ⟨κ.val, by have := κ.isLt; omega⟩) + ∑ κ : Fin n, g ⟨m + κ.val, by have := κ.isLt; omega⟩ := by
  rw [Fin.sum_univ_add]; rfl

/-- A sum over 256 indices is the sum of its four consecutive stretches of 64. -/
theorem sum_fin256 (g : Fin 256 → EReal) :
    ∑ k, g k = (((∑ κ : Fin 64, g ⟨κ.val, by have := κ.isLt; omega⟩) + ∑ κ : Fin 64, g ⟨64 + κ.val, by have := κ.isLt; omega⟩)
      + ∑ κ : Fin 64, g ⟨128 + κ.val, by have := κ.isLt; omega⟩) + ∑ κ : Fin 64, g ⟨192 + κ.val, by have := κ.isLt; omega⟩ := by
  rw [sum_fin_add (m := 192) (n := 64) g, sum_fin_add (m := 128) (n := 64) (fun k => g ⟨k.val, by have := k.isLt; omega⟩),
    sum_fin_add (m := 64) (n := 64) (fun k => g ⟨k.val, by have := k.isLt; omega⟩)]

end Cert.Spec

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LibDense.lean ====
/-
  A dense layer read at an index, in its two spellings.

  On the accelerator the layer is a matmul into a zero accumulator plus a one-row bias repeated down the rows; on the
  host it is a dot_general plus a vector bias laid along the columns. For plain dimension numbers both are, at the
  extended reals and at entry (p, q), the sum over κ of l (p, κ) * r (κ, q) plus the bias at q. A maximum with a
  repeated zero is the maximum with 0.
-/
import proofs.«163695_j53068615909745_1_alg».proof.Proof.LibPlainDot
import Idealize.ShloMosaic.Lib.Pipeline.Value

noncomputable section

open scoped BigOperators

namespace Idealize.ShloMosaic.Dense
open Idealize.ShloMosaic Idealize.ShloMosaic.ValueIdx Idealize.ShloMosaic.PlainDot

/-- The accelerator's spelling at (p, q). -/
theorem kernel_affine_apply {M K N : Nat} {φ₁ φ₂ : FTy} (d : DotDims ⟨2, ![M, K]⟩ ⟨2, ![K, N]⟩ ⟨2, ![M, N]⟩) (hd : IsPlain d)
    (hsc : (⟨2, ![1, N]⟩ : Shape).ShapeCasts ⟨2, ![1, N]⟩) (hbc : (⟨2, ![1, N]⟩ : Shape).Broadcasts ⟨2, ![M, N]⟩)
    (l : FVec Ideal ⟨2, ![M, K]⟩ φ₁) (r : FVec Ideal ⟨2, ![K, N]⟩ φ₂) (b2 : FVec Ideal ⟨2, ![1, N]⟩ .f32) (p : Fin M) (q : Fin N) :
    addf (matmul d none l r (constant ⟨2, ![M, N]⟩ .f32 0x00000000#32)) (broadcastTo ⟨2, ![M, N]⟩ (shapeCast ⟨2, ![1, N]⟩ b2 hsc) hbc) (ix2 p q)
      = (∑ κ : Fin K, l (ix2 p κ) * r (ix2 κ q)) + b2 (ix2 (0 : Fin 1) q) := by
  show FloatOps.addf (matmul d none l r (constant ⟨2, ![M, N]⟩ .f32 0x00000000#32) (ix2 p q))
      (broadcastTo ⟨2, ![M, N]⟩ (shapeCast ⟨2, ![1, N]⟩ b2 hsc) hbc (ix2 p q)) = _
  rw [shapeCast_self, broadcastTo_apply b2 hbc (ix2 p q) (ix2 (0 : Fin 1) q) (fun a => by
    match a with
    | ⟨0, _⟩ => show (0 : Nat) = if (1 : Nat) = 1 then 0 else _; rw [if_pos rfl]
    | ⟨1, _⟩ =>
      show q.val = if N = 1 then 0 else q.val
      split_ifs with h
      · have := q.isLt; omega
      · rfl)]
  exact congrArg (· + b2 (ix2 (0 : Fin 1) q)) (matmul_zero_plain d hd none l r p q)

/-- The host's spelling at (p, q). -/
theorem host_affine_apply {M K N : Nat} {φ₁ φ₂ : FTy} (d : DotDims ⟨2, ![M, K]⟩ ⟨2, ![K, N]⟩ ⟨2, ![M, N]⟩) (hd : IsPlain d)
    (h1 : (⟨1, ![N]⟩ : Shape).BroadcastsInDim ⟨2, ![1, N]⟩ ![1]) (h2 : (⟨2, ![1, N]⟩ : Shape).BroadcastsInDim ⟨2, ![M, N]⟩ ![0, 1])
    (l : FVec Ideal ⟨2, ![M, K]⟩ φ₁) (r : FVec Ideal ⟨2, ![K, N]⟩ φ₂) (b : FVec Ideal ⟨1, ![N]⟩ .f32) (p : Fin M) (q : Fin N) :
    addf (Host.dotGeneral d none l r) (broadcastInDim ⟨2, ![M, N]⟩ ![0, 1] h2 (broadcastInDim ⟨2, ![1, N]⟩ ![1] h1 b)) (ix2 p q)
      = (∑ κ : Fin K, l (ix2 p κ) * r (ix2 κ q)) + b (ix1 q) := by
  show FloatOps.addf (Host.dotGeneral d none l r (ix2 p q))
      (broadcastInDim ⟨2, ![M, N]⟩ ![0, 1] h2 (broadcastInDim ⟨2, ![1, N]⟩ ![1] h1 b) (ix2 p q)) = _
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if N = 1 then 0 else q.val
      split_ifs with h
      · have := q.isLt; omega
      · rfl),
    broadcastInDim_apply ![1] h1 b (ix2 (0 : Fin 1) q) (ix1 q) (fun a => by
    match a with
    | ⟨0, _⟩ =>
      show q.val = if N = 1 then 0 else q.val
      split_ifs with h
      · have := q.isLt; omega
      · rfl)]
  simp only [Host.dotGeneral]
  exact congrArg (· + b (ix1 q)) (dotGeneral_plain d hd none _ l r p q)

/-- The maximum with a repeated scalar zero, at an index. -/
theorem kernel_relu_apply {s : Shape} (A : FVec Ideal s .f32) (i : s.Idx) :
    maximumf A (broadcast s (Scalar.ofBits .f32 0x00000000#32)) i = max (A i) 0 := by
  show max (A i) (Ideal.ofBits .f32 0x00000000#32) = _
  rw [Ideal.ofBits_zero_f32]

/-- The maximum with a rank-0 zero repeated over the shape, at an index. -/
theorem host_relu_apply {s : Shape} (h0 : (⟨0, ![]⟩ : Shape).BroadcastsInDim s ![]) (A : FVec Ideal s .f32) (i : s.Idx) :
    maximumf A (broadcastInDim s ![] h0 (constant ⟨0, ![]⟩ .f32 0x00000000#32)) i = max (A i) 0 := by
  show max (A i) (broadcastInDim s ![] h0 (constant ⟨0, ![]⟩ .f32 0x00000000#32) i) = _
  refine congrArg (max (A i)) ((broadcastInDim_apply _ h0 _ i (fun a => a.elim0) (fun a => a.elim0)).trans ?_)
  rw [constant_apply, Ideal.ofBits_zero_f32]

end Idealize.ShloMosaic.Dense

end
-- ==== Proof.KReg0.lean ====
/-
  The first projection: the user rows.

  The array is cut into 5 blocks of 20000 rows; grid point t stages rows 20000 t … 20000 t + 19999 of the input, the
  whole weight and the whole one-row bias, and writes back the same rows of the output. Entry (r, q) of what it writes
  is max (Σ κ, x (20000 t + r, κ) * w (κ, q) + b (0, q), 0), which is entry (20000 t + r, q) of the dense layer of the
  whole arrays; the blocks tile the output, so the output array ends holding the dense layer.
-/
import proofs.«163695_j53068615909745_1_alg».proof.Proof.Gen.KernelIdeal.Frame
import proofs.«163695_j53068615909745_1_alg».proof.Proof.Spec
import proofs.«163695_j53068615909745_1_alg».proof.Proof.LibDense
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The arrays region 0 reads, as it finds them. -/
abbrev x0 (c : Dev nD) : Vec Ideal S100000x128 .f32 := V c main_arg0
abbrev w0 (c : Dev nD) : Vec Ideal S128x64 .f32 := V c main_arg7
abbrev b0 (c : Dev nD) : Vec Ideal S1x64 .f32 := V c main_v0

theorem hz0 : (![0, 0] : Fin 2 → Nat) = fun _ => 0 := funext fun a => by fin_cases a <;> rfl

/-- What the body stores, at (r, q). -/
theorem pay0_apply (x : Vec Ideal S20000x128 .f32) (w : Vec Ideal S128x64 .f32) (b2 : Vec Ideal S1x64 .f32) (r : Fin 20000) (q : Fin 64) :
    k0_pay1 x w b2 (ix2 r q) = max ((∑ κ : Fin 128, x (ix2 r κ) * w (ix2 κ q)) + b2 (ix2 (0 : Fin 1) q)) 0 := by
  unfold k0_pay1
  refine (Dense.kernel_relu_apply _ _).trans ?_
  exact congrArg (max · 0) (Dense.kernel_affine_apply dot_S20000x128_S128x64_S20000x64_1_0_0_1_n_n ⟨rfl, rfl, rfl, rfl, rfl, rfl⟩ _ _ _ _ _ r q)

/-- The index maps over the grid: the row window moves with the point, the others stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's input block is rows 20000 t … of the input array. -/
theorem xblk0 (c : Dev nD) (t : Fin cfg0.N) (y : S20000x128.Idx) (k : S100000x128.Idx)
    (hk0 : (k 0).val = t.val * 20000 + (y 0).val) (hk1 : (k 1).val = (y 1).val) :
    (iblk0 V c 0 t : Vec Ideal S20000x128 .f32) y = x0 V c k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 20000 + 1 * (y 0).val = (k 0).val; rw [e0, hk0]; omega
  | ⟨1, _⟩ => show win0_0.index t 1 * 128 + 1 * (y 1).val = (k 1).val; rw [e1, hk1]; omega

/-- Every point's weight block is the whole weight. -/
theorem wblk0 (c : Dev nD) (t : Fin cfg0.N) (y : S128x64.Idx) :
    (iblk0 V c 1 t : Vec Ideal S128x64 .f32) y = w0 V c y := by
  obtain ⟨-, -, e0, e1, -⟩ := idx0 t
  unfold iblk0
  rw [View.read_apply]
  show V c main_arg7 _ = V c main_arg7 _
  congr 1
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-- Every point's bias block is the whole one-row bias. -/
theorem bblk0 (c : Dev nD) (t : Fin cfg0.N) (y : S1x64.Idx) :
    (iblk0 V c 2 t : Vec Ideal S1x64 .f32) y = b0 V c y := by
  obtain ⟨-, -, -, -, e0, e1, -⟩ := idx0 t
  unfold iblk0
  rw [View.read_apply]
  show V c main_v0 _ = V c main_v0 _
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

/-- The dense layer of the arrays as region 0 finds them. -/
abbrev layer0 (c : Dev nD) : Vec Ideal S100000x64 .f32 :=
  Spec.dense (x0 V c) (w0 V c) (Spec.firstRow (b0 V c))

/-- What point t writes back is block t of the dense layer. -/
theorem flushed0 (c : Dev nD) (t : Fin cfg0.N) :
    (dat0 V c).flushed 3 t = ((cfg0.win 3).blk t).view.read (Elt Ideal) (layer0 V c) := by
  show (cfg0.win 3).cut (grid0.coords t) ((dat0 V c).after 3 t) = _
  rw [after0_3]
  unfold out0_3
  rw [View.canon_unit_zero hz0]
  simp only [View.ld_unit_zero (S := S20000x128) hz0, View.ld_unit_zero (S := S128x64) hz0, View.ld_unit_zero (S := S1x64) hz0]
  obtain ⟨-, -, -, -, -, -, e0, e1⟩ := idx0 t
  funext y
  obtain ⟨r, q, rfl⟩ : ∃ (r : Fin 20000) (q : Fin 64), y = ix2 r q := ⟨y 0, y 1, eq_ix2 y⟩
  have ht : t.val < 5 := t.isLt
  have hr : r.val < 20000 := r.isLt
  have hemb : ((cfg0.win 3).blk t).view.emb (ix2 r q) = (ix2 (⟨t.val * 20000 + r.val, by omega⟩ : Fin 100000) q : S100000x64.Idx) := by
    funext a
    apply Fin.ext
    match a with
    | ⟨0, _⟩ => show win0_3.index t 0 * 20000 + 1 * r.val = t.val * 20000 + r.val; rw [e0]; omega
    | ⟨1, _⟩ => show win0_3.index t 1 * 64 + 1 * q.val = q.val; rw [e1]; omega
  rw [View.read_apply, hemb]
  refine (pay0_apply _ _ _ r q).trans ?_
  show _ = max ((∑ κ : Fin 128, x0 V c (ix2 (⟨t.val * 20000 + r.val, by omega⟩ : Fin 100000) κ) * w0 V c (ix2 κ q))
      + b0 V c (ix2 (0 : Fin 1) q)) 0
  rw [bblk0 V c t]
  refine congrArg (fun z => max (z + _) 0) (Finset.sum_congr rfl fun κ _ => ?_)
  rw [xblk0 V c t (ix2 r κ) (ix2 (⟨t.val * 20000 + r.val, by omega⟩ : Fin 100000) κ) rfl rfl, wblk0 V c t]

/-- The blocks tile the output array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 20000 := ⟨⟨(i 0).val / 20000, by show (i 0).val / 20000 < 5; omega⟩, rfl⟩
  refine ⟨t, flush0_3 t, ?_⟩
  show i ∈ ((View.whole main_v1).slice (win0_3.rect t)).set
  rw [View.set_slice_whole, Rect.mem_set_unit]
  obtain ⟨-, -, -, -, -, -, e0, e1⟩ := idx0 t
  intro a
  match a with
  | ⟨0, _⟩ => show win0_3.index t 0 * 20000 ≤ (i 0).val ∧ (i 0).val < win0_3.index t 0 * 20000 + 20000; rw [e0, ht]; omega
  | ⟨1, _⟩ => show win0_3.index t 1 * 64 ≤ (i 1).val ∧ (i 1).val < win0_3.index t 1 * 64 + 64; rw [e1]; omega

/-- After region 0 its output array holds the dense layer of the arrays the region found. -/
theorem final0 (c : Dev nD) : (dat0 V c).arrAt 3 cfg0.N = layer0 V c :=
  (dat0 V c).arrAt_eq_of_cover 3 (layer0 V c) (fun t _ => flushed0 V c t) (cover0)

end Cert.KernelIdeal.Hand

end
-- ==== Proof.KReg1.lean ====
/-
  The second projection: the session rows.

  The array is cut into 25 blocks of 20000 rows; grid point t stages rows 20000 t … 20000 t + 19999 of the input, the
  whole weight and the whole one-row bias, and writes back the same rows of the output. Entry (r, q) of what it writes
  is max (Σ κ, x (20000 t + r, κ) * w (κ, q) + b (0, q), 0), which is entry (20000 t + r, q) of the dense layer of the
  whole arrays; the blocks tile the output, so the output array ends holding the dense layer.
-/
import proofs.«163695_j53068615909745_1_alg».proof.Proof.Gen.KernelIdeal.Frame
import proofs.«163695_j53068615909745_1_alg».proof.Proof.Spec
import proofs.«163695_j53068615909745_1_alg».proof.Proof.LibDense
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The arrays region 1 reads, as it finds them. -/
abbrev x1 (c : Dev nD) : Vec Ideal S500000x64 .f32 := V c main_arg1
abbrev w1 (c : Dev nD) : Vec Ideal S64x64 .f32 := V c main_arg9
abbrev b1 (c : Dev nD) : Vec Ideal S1x64 .f32 := V c main_v2

theorem hz1 : (![0, 0] : Fin 2 → Nat) = fun _ => 0 := funext fun a => by fin_cases a <;> rfl

/-- What the body stores, at (r, q). -/
theorem pay1_apply (x : Vec Ideal S20000x64 .f32) (w : Vec Ideal S64x64 .f32) (b2 : Vec Ideal S1x64 .f32) (r : Fin 20000) (q : Fin 64) :
    k1_pay1 x w b2 (ix2 r q) = max ((∑ κ : Fin 64, x (ix2 r κ) * w (ix2 κ q)) + b2 (ix2 (0 : Fin 1) q)) 0 := by
  unfold k1_pay1
  refine (Dense.kernel_relu_apply _ _).trans ?_
  exact congrArg (max · 0) (Dense.kernel_affine_apply dot_S20000x64_S64x64_S20000x64_1_0_0_1_n_n ⟨rfl, rfl, rfl, rfl, rfl, rfl⟩ _ _ _ _ _ r q)

/-- The index maps over the grid: the row window moves with the point, the others stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point t's input block is rows 20000 t … of the input array. -/
theorem xblk1 (c : Dev nD) (t : Fin cfg1.N) (y : S20000x64.Idx) (k : S500000x64.Idx)
    (hk0 : (k 0).val = t.val * 20000 + (y 0).val) (hk1 : (k 1).val = (y 1).val) :
    (iblk1 V c 0 t : Vec Ideal S20000x64 .f32) y = x1 V c k := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 20000 + 1 * (y 0).val = (k 0).val; rw [e0, hk0]; omega
  | ⟨1, _⟩ => show win1_0.index t 1 * 64 + 1 * (y 1).val = (k 1).val; rw [e1, hk1]; omega

/-- Every point's weight block is the whole weight. -/
theorem wblk1 (c : Dev nD) (t : Fin cfg1.N) (y : S64x64.Idx) :
    (iblk1 V c 1 t : Vec Ideal S64x64 .f32) y = w1 V c y := by
  obtain ⟨-, -, e0, e1, -⟩ := idx1 t
  unfold iblk1
  rw [View.read_apply]
  show V c main_arg9 _ = V c main_arg9 _
  congr 1
  funext a
  apply Fin.ext
  match a with
  | ⟨0, _⟩ => show win1_1.index t 0 * 64 + 1 * (y 0).val = (y 0).val; rw [e0]; omega
  | ⟨1, _⟩ => show win1_1.index t 1 * 64 + 1 * (y 1).val = (y 1).val; rw [e1]; omega

/-- Every point's bias block is the whole one-row bias. -/
theorem bblk1 (c : Dev nD) (t : Fin cfg1.N) (y : S1x64.Idx) :
    (iblk1 V c 2 t : Vec Ideal S1x64 .f32) y = b1 V c y := by
  obtain ⟨-, -, -, -, e0, e1, -⟩ := idx1 t
  unfold iblk1
  rw [View.read_apply]
  show V c main_v2 _ = V c main_v2 _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- The dense layer of the arrays as region 1 finds them. -/
abbrev layer1 (c : Dev nD) : Vec Ideal S500000x64 .f32 :=
  Spec.dense (x1 V c) (w1 V c) (Spec.firstRow (b1 V c))

/-- What point t writes back is block t of the dense layer. -/
theorem flushed1 (c : Dev nD) (t : Fin cfg1.N) :
    (dat1 V c).flushed 3 t = ((cfg1.win 3).blk t).view.read (Elt Ideal) (layer1 V c) := by
  show (cfg1.win 3).cut (grid1.coords t) ((dat1 V c).after 3 t) = _
  rw [after1_3]
  unfold out1_3
  rw [View.canon_unit_zero hz1]
  simp only [View.ld_unit_zero (S := S20000x64) hz1, View.ld_unit_zero (S := S64x64) hz1, View.ld_unit_zero (S := S1x64) hz1]
  obtain ⟨-, -, -, -, -, -, e0, e1⟩ := idx1 t
  funext y
  obtain ⟨r, q, rfl⟩ : ∃ (r : Fin 20000) (q : Fin 64), y = ix2 r q := ⟨y 0, y 1, eq_ix2 y⟩
  have ht : t.val < 25 := t.isLt
  have hr : r.val < 20000 := r.isLt
  have hemb : ((cfg1.win 3).blk t).view.emb (ix2 r q) = (ix2 (⟨t.val * 20000 + r.val, by omega⟩ : Fin 500000) q : S500000x64.Idx) := by
    funext a
    apply Fin.ext
    match a with
    | ⟨0, _⟩ => show win1_3.index t 0 * 20000 + 1 * r.val = t.val * 20000 + r.val; rw [e0]; omega
    | ⟨1, _⟩ => show win1_3.index t 1 * 64 + 1 * q.val = q.val; rw [e1]; omega
  rw [View.read_apply, hemb]
  refine (pay1_apply _ _ _ r q).trans ?_
  show _ = max ((∑ κ : Fin 64, x1 V c (ix2 (⟨t.val * 20000 + r.val, by omega⟩ : Fin 500000) κ) * w1 V c (ix2 κ q))
      + b1 V c (ix2 (0 : Fin 1) q)) 0
  rw [bblk1 V c t]
  refine congrArg (fun z => max (z + _) 0) (Finset.sum_congr rfl fun κ _ => ?_)
  rw [xblk1 V c t (ix2 r κ) (ix2 (⟨t.val * 20000 + r.val, by omega⟩ : Fin 500000) κ) rfl rfl, wblk1 V c t]

/-- The blocks tile the output array. -/
theorem cover1 (i : S500000x64.Idx) : ∃ t : Fin cfg1.N, (cfg1.win 3).flush t = true ∧ i ∈ ((cfg1.win 3).blk t).view.set := by
  have hi0 : (i 0).val < 500000 := (i 0).isLt
  have hi1 : (i 1).val < 64 := (i 1).isLt
  obtain ⟨t, ht⟩ : ∃ t : Fin cfg1.N, t.val = (i 0).val / 20000 := ⟨⟨(i 0).val / 20000, by show (i 0).val / 20000 < 25; omega⟩, rfl⟩
  refine ⟨t, flush1_3 t, ?_⟩
  show i ∈ ((View.whole main_v3).slice (win1_3.rect t)).set
  rw [View.set_slice_whole, Rect.mem_set_unit]
  obtain ⟨-, -, -, -, -, -, e0, e1⟩ := idx1 t
  intro a
  match a with
  | ⟨0, _⟩ => show win1_3.index t 0 * 20000 ≤ (i 0).val ∧ (i 0).val < win1_3.index t 0 * 20000 + 20000; rw [e0, ht]; omega
  | ⟨1, _⟩ => show win1_3.index t 1 * 64 ≤ (i 1).val ∧ (i 1).val < win1_3.index t 1 * 64 + 64; rw [e1]; omega

/-- After region 1 its output array holds the dense layer of the arrays the region found. -/
theorem final1 (c : Dev nD) : (dat1 V c).arrAt 3 cfg1.N = layer1 V c :=
  (dat1 V c).arrAt_eq_of_cover 3 (layer1 V c) (fun t _ => flushed1 V c t) (cover1)

end Cert.KernelIdeal.Hand

end
-- ==== Proof.KReg2.lean ====
/-
  The third projection: the message rows.

  The array is cut into 100 blocks of 20000 rows; grid point t stages rows 20000 t … 20000 t + 19999 of the input, the
  whole weight and the whole one-row bias, and writes back the same rows of the output. Entry (r, q) of what it writes
  is max (Σ κ, x (20000 t + r, κ) * w (κ, q) + b (0, q), 0), which is entry (20000 t + r, q) of the dense layer of the
  whole arrays; the blocks tile the output, so the output array ends holding the dense layer.
-/
import proofs.«163695_j53068615909745_1_alg».proof.Proof.Gen.KernelIdeal.Frame
import proofs.«163695_j53068615909745_1_alg».proof.Proof.Spec
import proofs.«163695_j53068615909745_1_alg».proof.Proof.LibDense
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The arrays region 2 reads, as it finds them. -/
abbrev x2 (c : Dev nD) : Vec Ideal S2000000x64 .f32 := V c main_arg2
abbrev w2 (c : Dev nD) : Vec Ideal S64x64 .f32 := V c main_arg11
abbrev b2 (c : Dev nD) : Vec Ideal S1x64 .f32 := V c main_v4

theorem hz2 : (![0, 0] : Fin 2 → Nat) = fun _ => 0 := funext fun a => by fin_cases a <;> rfl

/-- What the body stores, at (r, q). -/
theorem pay2_apply (x : Vec Ideal S20000x64 .f32) (w : Vec Ideal S64x64 .f32) (b2 : Vec Ideal S1x64 .f32) (r : Fin 20000) (q : Fin 64) :
    k2_pay1 x w b2 (ix2 r q) = max ((∑ κ : Fin 64, x (ix2 r κ) * w (ix2 κ q)) + b2 (ix2 (0 : Fin 1) q)) 0 := by
  unfold k2_pay1
  refine (Dense.kernel_relu_apply _ _).trans ?_
  exact congrArg (max · 0) (Dense.kernel_affine_apply dot_S20000x64_S64x64_S20000x64_1_0_0_1_n_n ⟨rfl, rfl, rfl, rfl, rfl, rfl⟩ _ _ _ _ _ r q)

/-- The index maps over the grid: the row window moves with the point, the others stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point t's input block is rows 20000 t … of the input array. -/
theorem xblk2 (c : Dev nD) (t : Fin cfg2.N) (y : S20000x64.Idx) (k : S2000000x64.Idx)
    (hk0 : (k 0).val = t.val * 20000 + (y 0).val) (hk1 : (k 1).val = (y 1).val) :
    (iblk2 V c 0 t : Vec Ideal S20000x64 .f32) y = x2 V c k := by
  obtain ⟨e0, e1, -⟩ := idx2 t
  unfold iblk2
  rw [View.read_apply]
  show V c main_arg2 _ = V c main_arg2 _
  congr 1
  funext a
  apply Fin.ext
  match a with
  | ⟨0, _⟩ => show win2_0.index t 0 * 20000 + 1 * (y 0).val = (k 0).val; rw [e0, hk0]; omega
  | ⟨1, _⟩ => show win2_0.index t 1 * 64 + 1 * (y 1).val = (k 1).val; rw [e1, hk1]; omega

/-- Every point's weight block is the whole weight. -/
theorem wblk2 (c : Dev nD) (t : Fin cfg2.N) (y : S64x64.Idx) :
    (iblk2 V c 1 t : Vec Ideal S64x64 .f32) y = w2 V c y := by
  obtain ⟨-, -, e0, e1, -⟩ := idx2 t
  unfold iblk2
  rw [View.read_apply]
  show V c main_arg11 _ = V c main_arg11 _
  congr 1
  funext a
  apply Fin.ext
  match a with
  | ⟨0, _⟩ => show win2_1.index t 0 * 64 + 1 * (y 0).val = (y 0).val; rw [e0]; omega
  | ⟨1, _⟩ => show win2_1.index t 1 * 64 + 1 * (y 1).val = (y 1).val; rw [e1]; omega

/-- Every point's bias block is the whole one-row bias. -/
theorem bblk2 (c : Dev nD) (t : Fin cfg2.N) (y : S1x64.Idx) :
    (iblk2 V c 2 t : Vec Ideal S1x64 .f32) y = b2 V c y := by
  obtain ⟨-, -, -, -, e0, e1, -⟩ := idx2 t
  unfold iblk2
  rw [View.read_apply]
  show V c main_v4 _ = V c main_v4 _
  congr 1
  funext a
  apply Fin.ext
  match a with
  | ⟨0, _⟩ => show win2_2.index t 0 * 1 + 1 * (y 0).val = (y 0).val; rw [e0]; omega
  | ⟨1, _⟩ => show win2_2.index t 1 * 64 + 1 * (y 1).val = (y 1).val; rw [e1]; omega

/-- The dense layer of the arrays as region 2 finds them. -/
abbrev layer2 (c : Dev nD) : Vec Ideal S2000000x64 .f32 :=
  Spec.dense (x2 V c) (w2 V c) (Spec.firstRow (b2 V c))

/-- What point t writes back is block t of the dense layer. -/
theorem flushed2 (c : Dev nD) (t : Fin cfg2.N) :
    (dat2 V c).flushed 3 t = ((cfg2.win 3).blk t).view.read (Elt Ideal) (layer2 V c) := by
  show (cfg2.win 3).cut (grid2.coords t) ((dat2 V c).after 3 t) = _
  rw [after2_3]
  unfold out2_3
  rw [View.canon_unit_zero hz2]
  simp only [View.ld_unit_zero (S := S20000x64) hz2, View.ld_unit_zero (S := S64x64) hz2, View.ld_unit_zero (S := S1x64) hz2]
  obtain ⟨-, -, -, -, -, -, e0, e1⟩ := idx2 t
  funext y
  obtain ⟨r, q, rfl⟩ : ∃ (r : Fin 20000) (q : Fin 64), y = ix2 r q := ⟨y 0, y 1, eq_ix2 y⟩
  have ht : t.val < 100 := t.isLt
  have hr : r.val < 20000 := r.isLt
  have hemb : ((cfg2.win 3).blk t).view.emb (ix2 r q) = (ix2 (⟨t.val * 20000 + r.val, by omega⟩ : Fin 2000000) q : S2000000x64.Idx) := by
    funext a
    apply Fin.ext
    match a with
    | ⟨0, _⟩ => show win2_3.index t 0 * 20000 + 1 * r.val = t.val * 20000 + r.val; rw [e0]; omega
    | ⟨1, _⟩ => show win2_3.index t 1 * 64 + 1 * q.val = q.val; rw [e1]; omega
  rw [View.read_apply, hemb]
  refine (pay2_apply _ _ _ r q).trans ?_
  show _ = max ((∑ κ : Fin 64, x2 V c (ix2 (⟨t.val * 20000 + r.val, by omega⟩ : Fin 2000000) κ) * w2 V c (ix2 κ q))
      + b2 V c (ix2 (0 : Fin 1) q)) 0
  rw [bblk2 V c t]
  refine congrArg (fun z => max (z + _) 0) (Finset.sum_congr rfl fun κ _ => ?_)
  rw [xblk2 V c t (ix2 r κ) (ix2 (⟨t.val * 20000 + r.val, by omega⟩ : Fin 2000000) κ) rfl rfl, wblk2 V c t]

/-- The blocks tile the output array. -/
theorem cover2 (i : S2000000x64.Idx) : ∃ t : Fin cfg2.N, (cfg2.win 3).flush t = true ∧ i ∈ ((cfg2.win 3).blk t).view.set := by
  have hi0 : (i 0).val < 2000000 := (i 0).isLt
  have hi1 : (i 1).val < 64 := (i 1).isLt
  obtain ⟨t, ht⟩ : ∃ t : Fin cfg2.N, t.val = (i 0).val / 20000 := ⟨⟨(i 0).val / 20000, by show (i 0).val / 20000 < 100; omega⟩, rfl⟩
  refine ⟨t, flush2_3 t, ?_⟩
  show i ∈ ((View.whole main_v5).slice (win2_3.rect t)).set
  rw [View.set_slice_whole, Rect.mem_set_unit]
  obtain ⟨-, -, -, -, -, -, e0, e1⟩ := idx2 t
  intro a
  match a with
  | ⟨0, _⟩ => show win2_3.index t 0 * 20000 ≤ (i 0).val ∧ (i 0).val < win2_3.index t 0 * 20000 + 20000; rw [e0, ht]; omega
  | ⟨1, _⟩ => show win2_3.index t 1 * 64 ≤ (i 1).val ∧ (i 1).val < win2_3.index t 1 * 64 + 64; rw [e1]; omega

/-- After region 2 its output array holds the dense layer of the arrays the region found. -/
theorem final2 (c : Dev nD) : (dat2 V c).arrAt 3 cfg2.N = layer2 V c :=
  (dat2 V c).arrAt_eq_of_cover 3 (layer2 V c) (fun t _ => flushed2 V c t) (cover2)

end Cert.KernelIdeal.Hand

end
-- ==== Proof.KReg3.lean ====
/-
  The fourth projection: the feedback rows.

  The array is cut into 50 blocks of 20000 rows; grid point t stages rows 20000 t … 20000 t + 19999 of the input, the
  whole weight and the whole one-row bias, and writes back the same rows of the output. Entry (r, q) of what it writes
  is max (Σ κ, x (20000 t + r, κ) * w (κ, q) + b (0, q), 0), which is entry (20000 t + r, q) of the dense layer of the
  whole arrays; the blocks tile the output, so the output array ends holding the dense layer.
-/
import proofs.«163695_j53068615909745_1_alg».proof.Proof.Gen.KernelIdeal.Frame
import proofs.«163695_j53068615909745_1_alg».proof.Proof.Spec
import proofs.«163695_j53068615909745_1_alg».proof.Proof.LibDense
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The arrays region 3 reads, as it finds them. -/
abbrev x3 (c : Dev nD) : Vec Ideal S1000000x32 .f32 := V c main_arg3
abbrev w3 (c : Dev nD) : Vec Ideal S32x64 .f32 := V c main_arg13
abbrev b3 (c : Dev nD) : Vec Ideal S1x64 .f32 := V c main_v6

theorem hz3 : (![0, 0] : Fin 2 → Nat) = fun _ => 0 := funext fun a => by fin_cases a <;> rfl

/-- What the body stores, at (r, q). -/
theorem pay3_apply (x : Vec Ideal S20000x32 .f32) (w : Vec Ideal S32x64 .f32) (b2 : Vec Ideal S1x64 .f32) (r : Fin 20000) (q : Fin 64) :
    k3_pay1 x w b2 (ix2 r q) = max ((∑ κ : Fin 32, x (ix2 r κ) * w (ix2 κ q)) + b2 (ix2 (0 : Fin 1) q)) 0 := by
  unfold k3_pay1
  refine (Dense.kernel_relu_apply _ _).trans ?_
  exact congrArg (max · 0) (Dense.kernel_affine_apply dot_S20000x32_S32x64_S20000x64_1_0_0_1_n_n ⟨rfl, rfl, rfl, rfl, rfl, rfl⟩ _ _ _ _ _ r q)

/-- The index maps over the grid: the row window moves with the point, the others stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point t's input block is rows 20000 t … of the input array. -/
theorem xblk3 (c : Dev nD) (t : Fin cfg3.N) (y : S20000x32.Idx) (k : S1000000x32.Idx)
    (hk0 : (k 0).val = t.val * 20000 + (y 0).val) (hk1 : (k 1).val = (y 1).val) :
    (iblk3 V c 0 t : Vec Ideal S20000x32 .f32) y = x3 V c k := by
  obtain ⟨e0, e1, -⟩ := idx3 t
  unfold iblk3
  rw [View.read_apply]
  show V c main_arg3 _ = V c main_arg3 _
  congr 1
  funext a
  apply Fin.ext
  match a with
  | ⟨0, _⟩ => show win3_0.index t 0 * 20000 + 1 * (y 0).val = (k 0).val; rw [e0, hk0]; omega
  | ⟨1, _⟩ => show win3_0.index t 1 * 32 + 1 * (y 1).val = (k 1).val; rw [e1, hk1]; omega

/-- Every point's weight block is the whole weight. -/
theorem wblk3 (c : Dev nD) (t : Fin cfg3.N) (y : S32x64.Idx) :
    (iblk3 V c 1 t : Vec Ideal S32x64 .f32) y = w3 V c y := by
  obtain ⟨-, -, e0, e1, -⟩ := idx3 t
  unfold iblk3
  rw [View.read_apply]
  show V c main_arg13 _ = V c main_arg13 _
  congr 1
  funext a
  apply Fin.ext
  match a with
  | ⟨0, _⟩ => show win3_1.index t 0 * 32 + 1 * (y 0).val = (y 0).val; rw [e0]; omega
  | ⟨1, _⟩ => show win3_1.index t 1 * 64 + 1 * (y 1).val = (y 1).val; rw [e1]; omega

/-- Every point's bias block is the whole one-row bias. -/
theorem bblk3 (c : Dev nD) (t : Fin cfg3.N) (y : S1x64.Idx) :
    (iblk3 V c 2 t : Vec Ideal S1x64 .f32) y = b3 V c y := by
  obtain ⟨-, -, -, -, e0, e1, -⟩ := idx3 t
  unfold iblk3
  rw [View.read_apply]
  show V c main_v6 _ = V c main_v6 _
  congr 1
  funext a
  apply Fin.ext
  match a with
  | ⟨0, _⟩ => show win3_2.index t 0 * 1 + 1 * (y 0).val = (y 0).val; rw [e0]; omega
  | ⟨1, _⟩ => show win3_2.index t 1 * 64 + 1 * (y 1).val = (y 1).val; rw [e1]; omega

/-- The dense layer of the arrays as region 3 finds them. -/
abbrev layer3 (c : Dev nD) : Vec Ideal S1000000x64 .f32 :=
  Spec.dense (x3 V c) (w3 V c) (Spec.firstRow (b3 V c))

/-- What point t writes back is block t of the dense layer. -/
theorem flushed3 (c : Dev nD) (t : Fin cfg3.N) :
    (dat3 V c).flushed 3 t = ((cfg3.win 3).blk t).view.read (Elt Ideal) (layer3 V c) := by
  show (cfg3.win 3).cut (grid3.coords t) ((dat3 V c).after 3 t) = _
  rw [after3_3]
  unfold out3_3
  rw [View.canon_unit_zero hz3]
  simp only [View.ld_unit_zero (S := S20000x32) hz3, View.ld_unit_zero (S := S32x64) hz3, View.ld_unit_zero (S := S1x64) hz3]
  obtain ⟨-, -, -, -, -, -, e0, e1⟩ := idx3 t
  funext y
  obtain ⟨r, q, rfl⟩ : ∃ (r : Fin 20000) (q : Fin 64), y = ix2 r q := ⟨y 0, y 1, eq_ix2 y⟩
  have ht : t.val < 50 := t.isLt
  have hr : r.val < 20000 := r.isLt
  have hemb : ((cfg3.win 3).blk t).view.emb (ix2 r q) = (ix2 (⟨t.val * 20000 + r.val, by omega⟩ : Fin 1000000) q : S1000000x64.Idx) := by
    funext a
    apply Fin.ext
    match a with
    | ⟨0, _⟩ => show win3_3.index t 0 * 20000 + 1 * r.val = t.val * 20000 + r.val; rw [e0]; omega
    | ⟨1, _⟩ => show win3_3.index t 1 * 64 + 1 * q.val = q.val; rw [e1]; omega
  rw [View.read_apply, hemb]
  refine (pay3_apply _ _ _ r q).trans ?_
  show _ = max ((∑ κ : Fin 32, x3 V c (ix2 (⟨t.val * 20000 + r.val, by omega⟩ : Fin 1000000) κ) * w3 V c (ix2 κ q))
      + b3 V c (ix2 (0 : Fin 1) q)) 0
  rw [bblk3 V c t]
  refine congrArg (fun z => max (z + _) 0) (Finset.sum_congr rfl fun κ _ => ?_)
  rw [xblk3 V c t (ix2 r κ) (ix2 (⟨t.val * 20000 + r.val, by omega⟩ : Fin 1000000) κ) rfl rfl, wblk3 V c t]

/-- The blocks tile the output array. -/
theorem cover3 (i : S1000000x64.Idx) : ∃ t : Fin cfg3.N, (cfg3.win 3).flush t = true ∧ i ∈ ((cfg3.win 3).blk t).view.set := by
  have hi0 : (i 0).val < 1000000 := (i 0).isLt
  have hi1 : (i 1).val < 64 := (i 1).isLt
  obtain ⟨t, ht⟩ : ∃ t : Fin cfg3.N, t.val = (i 0).val / 20000 := ⟨⟨(i 0).val / 20000, by show (i 0).val / 20000 < 50; omega⟩, rfl⟩
  refine ⟨t, flush3_3 t, ?_⟩
  show i ∈ ((View.whole main_v7).slice (win3_3.rect t)).set
  rw [View.set_slice_whole, Rect.mem_set_unit]
  obtain ⟨-, -, -, -, -, -, e0, e1⟩ := idx3 t
  intro a
  match a with
  | ⟨0, _⟩ => show win3_3.index t 0 * 20000 ≤ (i 0).val ∧ (i 0).val < win3_3.index t 0 * 20000 + 20000; rw [e0, ht]; omega
  | ⟨1, _⟩ => show win3_3.index t 1 * 64 ≤ (i 1).val ∧ (i 1).val < win3_3.index t 1 * 64 + 64; rw [e1]; omega

/-- After region 3 its output array holds the dense layer of the arrays the region found. -/
theorem final3 (c : Dev nD) : (dat3 V c).arrAt 3 cfg3.N = layer3 V c :=
  (dat3 V c).arrAt_eq_of_cover 3 (layer3 V c) (fun t _ => flushed3 V c t) (cover3)

end Cert.KernelIdeal.Hand

end
-- ==== Proof.KReg4.lean ====
/-
  The head of the network: the fusing layer, the embedding layer and the logit layer, in one region.

  The users are cut into 10 blocks of 10000 rows; grid point t stages rows 10000 t … of the four 64-feature inputs and
  every weight and bias whole, and writes back the same rows of the embedding and of the one-column logits.
-/
import proofs.«163695_j53068615909745_1_alg».proof.Proof.Gen.KernelIdeal.Frame
import proofs.«163695_j53068615909745_1_alg».proof.Proof.Spec
import proofs.«163695_j53068615909745_1_alg».proof.Proof.LibDense
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The arrays region 4 reads, as it finds them. -/
abbrev u4 (c : Dev nD) : Vec Ideal S100000x64 .f32 := V c main_v1
abbrev s4 (c : Dev nD) : Vec Ideal S100000x64 .f32 := V c main_v18
abbrev t4 (c : Dev nD) : Vec Ideal S100000x64 .f32 := V c main_v29
abbrev f4 (c : Dev nD) : Vec Ideal S100000x64 .f32 := V c main_v40
abbrev wu4 (c : Dev nD) : Vec Ideal S64x64 .f32 := V c main_v41
abbrev ws4 (c : Dev nD) : Vec Ideal S64x64 .f32 := V c main_v42
abbrev wt4 (c : Dev nD) : Vec Ideal S64x64 .f32 := V c main_v43
abbrev wf4 (c : Dev nD) : Vec Ideal S64x64 .f32 := V c main_v44
abbrev b14 (c : Dev nD) : Vec Ideal S1x64 .f32 := V c main_v45
abbrev w24 (c : Dev nD) : Vec Ideal S64x64 .f32 := V c main_arg17
abbrev b24 (c : Dev nD) : Vec Ideal S1x64 .f32 := V c main_v46
abbrev wc4 (c : Dev nD) : Vec Ideal S64x1 .f32 := V c main_arg19
abbrev bc4 (c : Dev nD) : Vec Ideal S1x1 .f32 := V c main_v47

/-- The fused hidden layer, the embedding and the one-column logits of the arrays as region 4 finds them. -/
abbrev hidden4 (c : Dev nD) : Vec Ideal S100000x64 .f32 :=
  Spec.fuse (u4 V c) (s4 V c) (t4 V c) (f4 V c) (wu4 V c) (ws4 V c) (wt4 V c) (wf4 V c) (Spec.firstRow (b14 V c))
abbrev emb4 (c : Dev nD) : Vec Ideal S100000x64 .f32 := Spec.dense (hidden4 V c) (w24 V c) (Spec.firstRow (b24 V c))
abbrev logit4 (c : Dev nD) : Vec Ideal S100000x1 .f32 := Spec.affine (emb4 V c) (wc4 V c) (Spec.firstRow (bc4 V c))

theorem hz4 : (![0, 0] : Fin 2 → Nat) = fun _ => 0 := funext fun a => by fin_cases a <;> rfl

/-- A product of two operands, each recast to its own shape, into a zero accumulator, at (p, q): the sum over κ of
    l (p, κ) * r (κ, q). -/
theorem mm4_apply {M K N : Nat} (d : DotDims ⟨2, ![M, K]⟩ ⟨2, ![K, N]⟩ ⟨2, ![M, N]⟩) (hd : PlainDot.IsPlain d)
    (h1 : (⟨2, ![M, K]⟩ : Shape).ShapeCasts ⟨2, ![M, K]⟩) (h2 : (⟨2, ![K, N]⟩ : Shape).ShapeCasts ⟨2, ![K, N]⟩)
    (hb1 : FTy.bf16.bits < FTy.f32.bits) (hb2 : FTy.bf16.bits < FTy.f32.bits)
    (l : FVec Ideal ⟨2, ![M, K]⟩ .f32) (r : FVec Ideal ⟨2, ![K, N]⟩ .f32) (p : Fin M) (q : Fin N) :
    matmul d none (truncf .bf16 (shapeCast ⟨2, ![M, K]⟩ l h1) hb1) (truncf .bf16 (shapeCast ⟨2, ![K, N]⟩ r h2) hb2)
        (constant ⟨2, ![M, N]⟩ .f32 0x00000000#32) (ix2 p q)
      = ∑ κ : Fin K, l (ix2 p κ) * r (ix2 κ q) := by
  rw [shapeCast_self, shapeCast_self]
  exact PlainDot.matmul_zero_plain d hd none _ _ p q

/-- A one-row bias, recast to its own shape and repeated down the rows, at (p, q): the bias at (0, q). -/
theorem bias4_apply {M N : Nat} (hsc : (⟨2, ![1, N]⟩ : Shape).ShapeCasts ⟨2, ![1, N]⟩) (hbc : (⟨2, ![1, N]⟩ : Shape).Broadcasts ⟨2, ![M, N]⟩)
    (b2 : FVec Ideal ⟨2, ![1, N]⟩ .f32) (p : Fin M) (q : Fin N) :
    broadcastTo ⟨2, ![M, N]⟩ (shapeCast ⟨2, ![1, N]⟩ b2 hsc) hbc (ix2 p q) = b2 (ix2 (0 : Fin 1) q) := by
  rw [shapeCast_self]
  exact broadcastTo_apply b2 hbc (ix2 p q) (ix2 (0 : Fin 1) q) (fun a => by
    match a with
    | ⟨0, _⟩ => show (0 : Nat) = if (1 : Nat) = 1 then 0 else _; rw [if_pos rfl]
    | ⟨1, _⟩ =>
      show q.val = if N = 1 then 0 else q.val
      split_ifs with h
      · have := q.isLt; omega
      · rfl)

/-- The fused sum before its rectifier, at (r, q): the four products added in order, then the bias. -/
theorem pay4_3_apply (u s t f : Vec Ideal S10000x64 .f32) (wu ws wt wf : Vec Ideal S64x64 .f32) (b : Vec Ideal S1x64 .f32)
    (r : Fin 10000) (q : Fin 64) :
    k4_pay3 u s t f wu ws wt wf b (ix2 r q)
      = ((((∑ κ : Fin 64, u (ix2 r κ) * wu (ix2 κ q)) + ∑ κ : Fin 64, s (ix2 r κ) * ws (ix2 κ q))
        + ∑ κ : Fin 64, t (ix2 r κ) * wt (ix2 κ q)) + ∑ κ : Fin 64, f (ix2 r κ) * wf (ix2 κ q)) + b (ix2 (0 : Fin 1) q) := by
  unfold k4_pay3
  refine (addf_apply _ _ _).trans ?_
  refine congrArg₂ (· + ·) ((addf_apply _ _ _).trans (congrArg₂ (· + ·) ((addf_apply _ _ _).trans (congrArg₂ (· + ·)
    ((addf_apply _ _ _).trans (congrArg₂ (· + ·) ?_ ?_)) ?_)) ?_)) (bias4_apply _ _ b r q)
  · exact mm4_apply dot_S10000x64_S64x64_S10000x64_1_0_0_1_n_n ⟨rfl, rfl, rfl, rfl, rfl, rfl⟩ _ _ _ _ u wu r q
  · exact mm4_apply dot_S10000x64_S64x64_S10000x64_1_0_0_1_n_n ⟨rfl, rfl, rfl, rfl, rfl, rfl⟩ _ _ _ _ s ws r q
  · exact mm4_apply dot_S10000x64_S64x64_S10000x64_1_0_0_1_n_n ⟨rfl, rfl, rfl, rfl, rfl, rfl⟩ _ _ _ _ t wt r q
  · exact mm4_apply dot_S10000x64_S64x64_S10000x64_1_0_0_1_n_n ⟨rfl, rfl, rfl, rfl, rfl, rfl⟩ _ _ _ _ f wf r q

/-- The embedding the body stores, at (r, q), from the fused sum h before its rectifier. -/
theorem pay4_1_apply (h : FVec Ideal S10000x64 .f32) (w2 : Vec Ideal S64x64 .f32) (b2 : Vec Ideal S1x64 .f32) (r : Fin 10000) (q : Fin 64) :
    k4_pay1 h k4_pay4 w2 b2 (ix2 r q) = max ((∑ κ : Fin 64, max (h (ix2 r κ)) 0 * w2 (ix2 κ q)) + b2 (ix2 (0 : Fin 1) q)) 0 := by
  unfold k4_pay1
  refine (Dense.kernel_relu_apply _ _).trans ?_
  refine congrArg (max · 0) ?_
  refine (Dense.kernel_affine_apply dot_S10000x64_S64x64_S10000x64_1_0_0_1_n_n ⟨rfl, rfl, rfl, rfl, rfl, rfl⟩ _ _ _ _ _ r q).trans ?_
  refine congrArg (· + b2 (ix2 (0 : Fin 1) q)) (Finset.sum_congr rfl fun κ _ => ?_)
  show max (h (ix2 r κ)) (Ideal.ofBits .f32 0x00000000#32) * w2 (ix2 κ q) = _
  rw [Ideal.ofBits_zero_f32]

/-- The logit the body stores, at (r, q), from the embedding it stores. -/
theorem pay4_2_apply (h : FVec Ideal S10000x64 .f32) (w2 : Vec Ideal S64x64 .f32) (b2 : Vec Ideal S1x64 .f32)
    (wc : Vec Ideal S64x1 .f32) (bc : Vec Ideal S1x1 .f32) (r : Fin 10000) (q : Fin 1) :
    k4_pay2 h k4_pay4 w2 b2 wc bc (ix2 r q)
      = (∑ κ : Fin 64, k4_pay1 h k4_pay4 w2 b2 (ix2 r κ) * wc (ix2 κ q)) + bc (ix2 (0 : Fin 1) q) := by
  unfold k4_pay2
  exact Dense.kernel_affine_apply dot_S10000x64_S64x1_S10000x1_1_0_0_1_n_n ⟨rfl, rfl, rfl, rfl, rfl, rfl⟩ _ _ _ _ _ r q

/-- The index maps over the grid: the row windows move with the point, -/
theorem idx4_rows : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_13.index t (0 : Fin 2) = t.val ∧ win4_13.index t (1 : Fin 2) = 0
    ∧ win4_14.index t (0 : Fin 2) = t.val ∧ win4_14.index t (1 : Fin 2) = 0 :=
  (by decide +kernel : ∀ t : Fin grid4.N, _)

/-- and the weights' and biases' stay. -/
theorem idx4_whole : ∀ t : Fin cfg4.N, win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0 :=
  (by decide +kernel : ∀ t : Fin grid4.N, _)

/-- Point t's block of window 0 is rows 10000 t … of its array. -/
theorem ublk4 (c : Dev nD) (t : Fin cfg4.N) (y : S10000x64.Idx) (k : S100000x64.Idx)
    (hk0 : (k 0).val = t.val * 10000 + (y 0).val) (hk1 : (k 1).val = (y 1).val) :
    (iblk4 V c 0 t : Vec Ideal S10000x64 .f32) y = u4 V c k := by
  obtain ⟨e0, e1, -⟩ := idx4_rows t
  unfold iblk4
  rw [View.read_apply]
  show V c main_v1 _ = V c main_v1 _
  congr 1
  funext a
  apply Fin.ext
  match a with
  | ⟨0, _⟩ => show win4_0.index t 0 * 10000 + 1 * (y 0).val = (k 0).val; rw [e0, hk0]; omega
  | ⟨1, _⟩ => show win4_0.index t 1 * 64 + 1 * (y 1).val = (k 1).val; rw [e1, hk1]; omega

/-- Point t's block of window 1 is rows 10000 t … of its array. -/
theorem sblk4 (c : Dev nD) (t : Fin cfg4.N) (y : S10000x64.Idx) (k : S100000x64.Idx)
    (hk0 : (k 0).val = t.val * 10000 + (y 0).val) (hk1 : (k 1).val = (y 1).val) :
    (iblk4 V c 1 t : Vec Ideal S10000x64 .f32) y = s4 V c k := by
  obtain ⟨-, -, e0, e1, -⟩ := idx4_rows t
  unfold iblk4
  rw [View.read_apply]
  show V c main_v18 _ = V c main_v18 _
  congr 1
  funext a
  apply Fin.ext
  match a with
  | ⟨0, _⟩ => show win4_1.index t 0 * 10000 + 1 * (y 0).val = (k 0).val; rw [e0, hk0]; omega
  | ⟨1, _⟩ => show win4_1.index t 1 * 64 + 1 * (y 1).val = (k 1).val; rw [e1, hk1]; omega

/-- Point t's block of window 2 is rows 10000 t … of its array. -/
theorem tblk4 (c : Dev nD) (t : Fin cfg4.N) (y : S10000x64.Idx) (k : S100000x64.Idx)
    (hk0 : (k 0).val = t.val * 10000 + (y 0).val) (hk1 : (k 1).val = (y 1).val) :
    (iblk4 V c 2 t : Vec Ideal S10000x64 .f32) y = t4 V c k := by
  obtain ⟨-, -, -, -, e0, e1, -⟩ := idx4_rows t
  unfold iblk4
  rw [View.read_apply]
  show V c main_v29 _ = V c main_v29 _
  congr 1
  funext a
  apply Fin.ext
  match a with
  | ⟨0, _⟩ => show win4_2.index t 0 * 10000 + 1 * (y 0).val = (k 0).val; rw [e0, hk0]; omega
  | ⟨1, _⟩ => show win4_2.index t 1 * 64 + 1 * (y 1).val = (k 1).val; rw [e1, hk1]; omega

/-- Point t's block of window 3 is rows 10000 t … of its array. -/
theorem fblk4 (c : Dev nD) (t : Fin cfg4.N) (y : S10000x64.Idx) (k : S100000x64.Idx)
    (hk0 : (k 0).val = t.val * 10000 + (y 0).val) (hk1 : (k 1).val = (y 1).val) :
    (iblk4 V c 3 t : Vec Ideal S10000x64 .f32) y = f4 V c k := by
  obtain ⟨-, -, -, -, -, -, e0, e1, -⟩ := idx4_rows t
  unfold iblk4
  rw [View.read_apply]
  show V c main_v40 _ = V c main_v40 _
  congr 1
  funext a
  apply Fin.ext
  match a with
  | ⟨0, _⟩ => show win4_3.index t 0 * 10000 + 1 * (y 0).val = (k 0).val; rw [e0, hk0]; omega
  | ⟨1, _⟩ => show win4_3.index t 1 * 64 + 1 * (y 1).val = (k 1).val; rw [e1, hk1]; omega

/-- Every point's block of window 4 is its whole array. -/
theorem wublk4 (c : Dev nD) (t : Fin cfg4.N) (y : S64x64.Idx) :
    (iblk4 V c 4 t : Vec Ideal S64x64 .f32) y = wu4 V c y := by
  obtain ⟨e0, e1, -⟩ := idx4_whole t
  unfold iblk4
  rw [View.read_apply]
  show V c main_v41 _ = V c main_v41 _
  congr 1
  funext a
  apply Fin.ext
  match a with
  | ⟨0, _⟩ => show win4_4.index t 0 * 64 + 1 * (y 0).val = (y 0).val; rw [e0]; omega
  | ⟨1, _⟩ => show win4_4.index t 1 * 64 + 1 * (y 1).val = (y 1).val; rw [e1]; omega

/-- Every point's block of window 5 is its whole array. -/
theorem wsblk4 (c : Dev nD) (t : Fin cfg4.N) (y : S64x64.Idx) :
    (iblk4 V c 5 t : Vec Ideal S64x64 .f32) y = ws4 V c y := by
  obtain ⟨-, -, e0, e1, -⟩ := idx4_whole t
  unfold iblk4
  rw [View.read_apply]
  show V c main_v42 _ = V c main_v42 _
  congr 1
  funext a
  apply Fin.ext
  match a with
  | ⟨0, _⟩ => show win4_5.index t 0 * 64 + 1 * (y 0).val = (y 0).val; rw [e0]; omega
  | ⟨1, _⟩ => show win4_5.index t 1 * 64 + 1 * (y 1).val = (y 1).val; rw [e1]; omega

/-- Every point's block of window 6 is its whole array. -/
theorem wtblk4 (c : Dev nD) (t : Fin cfg4.N) (y : S64x64.Idx) :
    (iblk4 V c 6 t : Vec Ideal S64x64 .f32) y = wt4 V c y := by
  obtain ⟨-, -, -, -, e0, e1, -⟩ := idx4_whole t
  unfold iblk4
  rw [View.read_apply]
  show V c main_v43 _ = V c main_v43 _
  congr 1
  funext a
  apply Fin.ext
  match a with
  | ⟨0, _⟩ => show win4_6.index t 0 * 64 + 1 * (y 0).val = (y 0).val; rw [e0]; omega
  | ⟨1, _⟩ => show win4_6.index t 1 * 64 + 1 * (y 1).val = (y 1).val; rw [e1]; omega

/-- Every point's block of window 7 is its whole array. -/
theorem wfblk4 (c : Dev nD) (t : Fin cfg4.N) (y : S64x64.Idx) :
    (iblk4 V c 7 t : Vec Ideal S64x64 .f32) y = wf4 V c y := by
  obtain ⟨-, -, -, -, -, -, e0, e1, -⟩ := idx4_whole t
  unfold iblk4
  rw [View.read_apply]
  show V c main_v44 _ = V c main_v44 _
  congr 1
  funext a
  apply Fin.ext
  match a with
  | ⟨0, _⟩ => show win4_7.index t 0 * 64 + 1 * (y 0).val = (y 0).val; rw [e0]; omega
  | ⟨1, _⟩ => show win4_7.index t 1 * 64 + 1 * (y 1).val = (y 1).val; rw [e1]; omega

/-- Every point's block of window 8 is its whole array. -/
theorem b1blk4 (c : Dev nD) (t : Fin cfg4.N) (y : S1x64.Idx) :
    (iblk4 V c 8 t : Vec Ideal S1x64 .f32) y = b14 V c y := by
  obtain ⟨-, -, -, -, -, -, -, -, e0, e1, -⟩ := idx4_whole t
  unfold iblk4
  rw [View.read_apply]
  show V c main_v45 _ = V c main_v45 _
  congr 1
  funext a
  apply Fin.ext
  match a with
  | ⟨0, _⟩ => show win4_8.index t 0 * 1 + 1 * (y 0).val = (y 0).val; rw [e0]; omega
  | ⟨1, _⟩ => show win4_8.index t 1 * 64 + 1 * (y 1).val = (y 1).val; rw [e1]; omega

/-- Every point's block of window 9 is its whole array. -/
theorem w2blk4 (c : Dev nD) (t : Fin cfg4.N) (y : S64x64.Idx) :
    (iblk4 V c 9 t : Vec Ideal S64x64 .f32) y = w24 V c y := by
  obtain ⟨-, -, -, -, -, -, -, -, -, -, e0, e1, -⟩ := idx4_whole t
  unfold iblk4
  rw [View.read_apply]
  show V c main_arg17 _ = V c main_arg17 _
  congr 1
  funext a
  apply Fin.ext
  match a with
  | ⟨0, _⟩ => show win4_9.index t 0 * 64 + 1 * (y 0).val = (y 0).val; rw [e0]; omega
  | ⟨1, _⟩ => show win4_9.index t 1 * 64 + 1 * (y 1).val = (y 1).val; rw [e1]; omega

/-- Every point's block of window 10 is its whole array. -/
theorem b2blk4 (c : Dev nD) (t : Fin cfg4.N) (y : S1x64.Idx) :
    (iblk4 V c 10 t : Vec Ideal S1x64 .f32) y = b24 V c y := by
  obtain ⟨-, -, -, -, -, -, -, -, -, -, -, -, e0, e1, -⟩ := idx4_whole t
  unfold iblk4
  rw [View.read_apply]
  show V c main_v46 _ = V c main_v46 _
  congr 1
  funext a
  apply Fin.ext
  match a with
  | ⟨0, _⟩ => show win4_10.index t 0 * 1 + 1 * (y 0).val = (y 0).val; rw [e0]; omega
  | ⟨1, _⟩ => show win4_10.index t 1 * 64 + 1 * (y 1).val = (y 1).val; rw [e1]; omega

/-- Every point's block of window 11 is its whole array. -/
theorem wcblk4 (c : Dev nD) (t : Fin cfg4.N) (y : S64x1.Idx) :
    (iblk4 V c 11 t : Vec Ideal S64x1 .f32) y = wc4 V c y := by
  obtain ⟨-, -, -, -, -, -, -, -, -, -, -, -, -, -, e0, e1, -⟩ := idx4_whole t
  unfold iblk4
  rw [View.read_apply]
  show V c main_arg19 _ = V c main_arg19 _
  congr 1
  funext a
  apply Fin.ext
  match a with
  | ⟨0, _⟩ => show win4_11.index t 0 * 64 + 1 * (y 0).val = (y 0).val; rw [e0]; omega
  | ⟨1, _⟩ => show win4_11.index t 1 * 1 + 1 * (y 1).val = (y 1).val; rw [e1]; omega

/-- Every point's block of window 12 is its whole array. -/
theorem bcblk4 (c : Dev nD) (t : Fin cfg4.N) (y : S1x1.Idx) :
    (iblk4 V c 12 t : Vec Ideal S1x1 .f32) y = bc4 V c y := by
  obtain ⟨-, -, -, -, -, -, -, -, -, -, -, -, -, -, -, -, e0, e1⟩ := idx4_whole t
  unfold iblk4
  rw [View.read_apply]
  show V c main_v47 _ = V c main_v47 _
  congr 1
  funext a
  apply Fin.ext
  match a with
  | ⟨0, _⟩ => show win4_12.index t 0 * 1 + 1 * (y 0).val = (y 0).val; rw [e0]; omega
  | ⟨1, _⟩ => show win4_12.index t 1 * 1 + 1 * (y 1).val = (y 1).val; rw [e1]; omega

/-- The fused sum of point t's blocks at (r, κ), rectified, is the hidden layer at (10000 t + r, κ). -/
theorem hid4 (c : Dev nD) (t : Fin cfg4.N) (r : Fin 10000) (κ : Fin 64) (hlt : t.val * 10000 + r.val < 100000) :
    max (k4_pay3 (iblk4 V c 0 t) (iblk4 V c 1 t) (iblk4 V c 2 t) (iblk4 V c 3 t) (iblk4 V c 4 t) (iblk4 V c 5 t) (iblk4 V c 6 t) (iblk4 V c 7 t) (iblk4 V c 8 t) (ix2 r κ)) 0
      = hidden4 V c (ix2 (⟨t.val * 10000 + r.val, hlt⟩ : Fin 100000) κ) := by
  refine (congrArg (max · 0) (pay4_3_apply _ _ _ _ _ _ _ _ _ r κ)).trans ?_
  show _ = max (((((∑ j : Fin 64, u4 V c (ix2 (⟨t.val * 10000 + r.val, hlt⟩ : Fin 100000) j) * wu4 V c (ix2 j κ))
      + ∑ j : Fin 64, s4 V c (ix2 (⟨t.val * 10000 + r.val, hlt⟩ : Fin 100000) j) * ws4 V c (ix2 j κ))
      + ∑ j : Fin 64, t4 V c (ix2 (⟨t.val * 10000 + r.val, hlt⟩ : Fin 100000) j) * wt4 V c (ix2 j κ))
      + ∑ j : Fin 64, f4 V c (ix2 (⟨t.val * 10000 + r.val, hlt⟩ : Fin 100000) j) * wf4 V c (ix2 j κ))
      + b14 V c (ix2 (0 : Fin 1) κ)) 0
  rw [b1blk4 V c t]
  refine congrArg (fun z => max (z + _) 0) ?_
  refine congrArg₂ (· + ·) (congrArg₂ (· + ·) (congrArg₂ (· + ·) ?_ ?_) ?_) ?_
  · refine Finset.sum_congr rfl fun j _ => ?_
    rw [ublk4 V c t (ix2 r j) (ix2 (⟨t.val * 10000 + r.val, hlt⟩ : Fin 100000) j) rfl rfl, wublk4 V c t]
  · refine Finset.sum_congr rfl fun j _ => ?_
    rw [sblk4 V c t (ix2 r j) (ix2 (⟨t.val * 10000 + r.val, hlt⟩ : Fin 100000) j) rfl rfl, wsblk4 V c t]
  · refine Finset.sum_congr rfl fun j _ => ?_
    rw [tblk4 V c t (ix2 r j) (ix2 (⟨t.val * 10000 + r.val, hlt⟩ : Fin 100000) j) rfl rfl, wtblk4 V c t]
  · refine Finset.sum_congr rfl fun j _ => ?_
    rw [fblk4 V c t (ix2 r j) (ix2 (⟨t.val * 10000 + r.val, hlt⟩ : Fin 100000) j) rfl rfl, wfblk4 V c t]

/-- The embedding the body computes from point t's blocks, at (r, q), is the embedding at (10000 t + r, q). -/
theorem embAt4 (c : Dev nD) (t : Fin cfg4.N) (r : Fin 10000) (q : Fin 64) (hlt : t.val * 10000 + r.val < 100000) :
    k4_pay1 (k4_pay3 (iblk4 V c 0 t) (iblk4 V c 1 t) (iblk4 V c 2 t) (iblk4 V c 3 t) (iblk4 V c 4 t) (iblk4 V c 5 t) (iblk4 V c 6 t) (iblk4 V c 7 t) (iblk4 V c 8 t)) k4_pay4 (iblk4 V c 9 t) (iblk4 V c 10 t) (ix2 r q)
      = emb4 V c (ix2 (⟨t.val * 10000 + r.val, hlt⟩ : Fin 100000) q) := by
  refine (pay4_1_apply _ _ _ r q).trans ?_
  show _ = max ((∑ κ : Fin 64, hidden4 V c (ix2 (⟨t.val * 10000 + r.val, hlt⟩ : Fin 100000) κ) * w24 V c (ix2 κ q))
      + b24 V c (ix2 (0 : Fin 1) q)) 0
  rw [b2blk4 V c t]
  refine congrArg (fun z => max (z + _) 0) (Finset.sum_congr rfl fun κ _ => ?_)
  rw [hid4 V c t r κ hlt, w2blk4 V c t]

/-- What point t writes back to the first output is block t of the embedding. -/
theorem flushed4_13 (c : Dev nD) (t : Fin cfg4.N) :
    (dat4 V c).flushed 13 t = ((cfg4.win 13).blk t).view.read (Elt Ideal) (emb4 V c) := by
  show (cfg4.win 13).cut (grid4.coords t) ((dat4 V c).after 13 t) = _
  rw [after4_13]
  unfold out4_13
  rw [View.canon_unit_zero hz4]
  simp only [View.ld_unit_zero (S := S10000x64) hz4, View.ld_unit_zero (S := S64x64) hz4, View.ld_unit_zero (S := S1x64) hz4]
  obtain ⟨-, -, -, -, -, -, -, -, e0, e1, -⟩ := idx4_rows t
  funext y
  obtain ⟨r, q, rfl⟩ : ∃ (r : Fin 10000) (q : Fin 64), y = ix2 r q := ⟨y 0, y 1, eq_ix2 y⟩
  have ht : t.val < 10 := t.isLt
  have hr : r.val < 10000 := r.isLt
  have hemb : ((cfg4.win 13).blk t).view.emb (ix2 r q) = (ix2 (⟨t.val * 10000 + r.val, by omega⟩ : Fin 100000) q : S100000x64.Idx) := by
    funext a
    apply Fin.ext
    match a with
    | ⟨0, _⟩ => show win4_13.index t 0 * 10000 + 1 * r.val = t.val * 10000 + r.val; rw [e0]; omega
    | ⟨1, _⟩ => show win4_13.index t 1 * 64 + 1 * q.val = q.val; rw [e1]; omega
  rw [View.read_apply, hemb]
  exact embAt4 V c t r q _

/-- What point t writes back to the second output is block t of the one-column logits. -/
theorem flushed4_14 (c : Dev nD) (t : Fin cfg4.N) :
    (dat4 V c).flushed 14 t = ((cfg4.win 14).blk t).view.read (Elt Ideal) (logit4 V c) := by
  show (cfg4.win 14).cut (grid4.coords t) ((dat4 V c).after 14 t) = _
  rw [after4_14]
  unfold out4_14
  rw [View.canon_unit_zero hz4]
  simp only [View.ld_unit_zero (S := S10000x64) hz4, View.ld_unit_zero (S := S64x64) hz4, View.ld_unit_zero (S := S1x64) hz4,
    View.ld_unit_zero (S := S64x1) hz4, View.ld_unit_zero (S := S1x1) hz4]
  obtain ⟨-, -, -, -, -, -, -, -, -, -, e0, e1⟩ := idx4_rows t
  funext y
  obtain ⟨r, q, rfl⟩ : ∃ (r : Fin 10000) (q : Fin 1), y = ix2 r q := ⟨y 0, y 1, eq_ix2 y⟩
  have ht : t.val < 10 := t.isLt
  have hr : r.val < 10000 := r.isLt
  have hlt : t.val * 10000 + r.val < 100000 := by omega
  have hemb : ((cfg4.win 14).blk t).view.emb (ix2 r q) = (ix2 (⟨t.val * 10000 + r.val, hlt⟩ : Fin 100000) q : S100000x1.Idx) := by
    funext a
    apply Fin.ext
    match a with
    | ⟨0, _⟩ => show win4_14.index t 0 * 10000 + 1 * r.val = t.val * 10000 + r.val; rw [e0]; omega
    | ⟨1, _⟩ => show win4_14.index t 1 * 1 + 1 * q.val = q.val; rw [e1]; omega
  rw [View.read_apply, hemb]
  refine (pay4_2_apply _ _ _ _ _ r q).trans ?_
  show _ = (∑ κ : Fin 64, emb4 V c (ix2 (⟨t.val * 10000 + r.val, hlt⟩ : Fin 100000) κ) * wc4 V c (ix2 κ q))
      + bc4 V c (ix2 (0 : Fin 1) q)
  rw [bcblk4 V c t]
  refine congrArg (· + _) (Finset.sum_congr rfl fun κ _ => ?_)
  rw [embAt4 V c t r κ hlt, wcblk4 V c t]

/-- The blocks tile the first output array, -/
theorem tiles4_13 (i : S100000x64.Idx) : ∃ t : Fin cfg4.N, (cfg4.win 13).flush t = true ∧ i ∈ ((cfg4.win 13).blk t).view.set := by
  have hi0 : (i 0).val < 100000 := (i 0).isLt
  have hi1 : (i 1).val < 64 := (i 1).isLt
  obtain ⟨t, ht⟩ : ∃ t : Fin cfg4.N, t.val = (i 0).val / 10000 := ⟨⟨(i 0).val / 10000, by show (i 0).val / 10000 < 10; omega⟩, rfl⟩
  refine ⟨t, flush4_13 t, ?_⟩
  show i ∈ ((View.whole main_v48_0).slice (win4_13.rect t)).set
  rw [View.set_slice_whole, Rect.mem_set_unit]
  obtain ⟨-, -, -, -, -, -, -, -, e0, e1, -⟩ := idx4_rows t
  intro a
  match a with
  | ⟨0, _⟩ => show win4_13.index t 0 * 10000 ≤ (i 0).val ∧ (i 0).val < win4_13.index t 0 * 10000 + 10000; rw [e0, ht]; omega
  | ⟨1, _⟩ => show win4_13.index t 1 * 64 ≤ (i 1).val ∧ (i 1).val < win4_13.index t 1 * 64 + 64; rw [e1]; omega

/-- and the second. -/
theorem tiles4_14 (i : S100000x1.Idx) : ∃ t : Fin cfg4.N, (cfg4.win 14).flush t = true ∧ i ∈ ((cfg4.win 14).blk t).view.set := by
  have hi0 : (i 0).val < 100000 := (i 0).isLt
  have hi1 : (i 1).val < 1 := (i 1).isLt
  obtain ⟨t, ht⟩ : ∃ t : Fin cfg4.N, t.val = (i 0).val / 10000 := ⟨⟨(i 0).val / 10000, by show (i 0).val / 10000 < 10; omega⟩, rfl⟩
  refine ⟨t, flush4_14 t, ?_⟩
  show i ∈ ((View.whole main_v48_1).slice (win4_14.rect t)).set
  rw [View.set_slice_whole, Rect.mem_set_unit]
  obtain ⟨-, -, -, -, -, -, -, -, -, -, e0, e1⟩ := idx4_rows t
  intro a
  match a with
  | ⟨0, _⟩ => show win4_14.index t 0 * 10000 ≤ (i 0).val ∧ (i 0).val < win4_14.index t 0 * 10000 + 10000; rw [e0, ht]; omega
  | ⟨1, _⟩ => show win4_14.index t 1 * 1 ≤ (i 1).val ∧ (i 1).val < win4_14.index t 1 * 1 + 1; rw [e1]; omega

/-- After region 4 its first output array holds the embedding. -/
theorem final4_emb (c : Dev nD) : (dat4 V c).arrAt 13 cfg4.N = emb4 V c :=
  (dat4 V c).arrAt_eq_of_cover 13 (emb4 V c) (fun t _ => flushed4_13 V c t) (tiles4_13)

/-- After region 4 its second output array holds the one-column logits. -/
theorem final4_logit (c : Dev nD) : (dat4 V c).arrAt 14 cfg4.N = logit4 V c :=
  (dat4 V c).arrAt_eq_of_cover 14 (logit4 V c) (fun t _ => flushed4_14 V c t) (tiles4_14)

end Cert.KernelIdeal.Hand

end
-- ==== Proof.Net.lean ====
/-
  The whole network as one function of its twenty-one arguments.

  Four dense layers with rectifier project the user, session, message and feedback rows to 64 features. The session,
  message and feedback projections are averaged per user: the rows that point at a user are added up, and the sum is
  divided by the number of such rows, or by one when there are none. The fusing layer multiplies the four 64-feature
  blocks by the four 64-row blocks of the fusing weight, adds the bias and rectifies; one more dense layer gives the
  embedding, and a last layer without rectifier gives one logit per user.
-/
import proofs.«163695_j53068615909745_1_alg».proof.Proof.Gen.KernelIdeal
import proofs.«163695_j53068615909745_1_alg».proof.Proof.Spec

noncomputable section

namespace Cert.Net

open Cert.KernelIdeal Cert.KernelIdeal.Facts₀ Idealize.ShloMosaic Idealize.ShloMosaic.ValueIdx

/-- The per-user mean of the session rows: sums scattered by user, over counts scattered by user and raised to at least one. -/
def aggSess (src : FVec Ideal S500000x64 .f32) (idx : IVec S500000 32) : FVec Ideal S100000x64 .f32 :=
  Host.divf
    (Host.scatterAdd scatter_S100000x64_S500000x1_S500000x64_1_0_0_1
      (broadcastInDim S100000x64 ![] bcast_S_S100000x64 (constant S_ .f32 0x00000000#32))
      (broadcastInDim S500000x1 ![0] bcast_S500000_S500000x1_0 idx) src)
    (broadcastInDim S100000x64 ![0, 1] bcast_S100000x1_S100000x64_0_1
      (maximumf
        (Host.scatterAdd scatter_S100000x1_S500000x1_S500000x1_1_0_0_1
          (broadcastInDim S100000x1 ![] bcast_S_S100000x1 (constant S_ .f32 0x00000000#32))
          (broadcastInDim S500000x1 ![0] bcast_S500000_S500000x1_0 idx)
          (broadcastInDim S500000x1 ![] bcast_S_S500000x1 (constant S_ .f32 0x3F800000#32)))
        (broadcastInDim S100000x1 ![] bcast_S_S100000x1 (constant S_ .f32 0x3F800000#32))))

/-- The per-user mean of the message rows. -/
def aggMsg (src : FVec Ideal S2000000x64 .f32) (idx : IVec S2000000 32) : FVec Ideal S100000x64 .f32 :=
  Host.divf
    (Host.scatterAdd scatter_S100000x64_S2000000x1_S2000000x64_1_0_0_1
      (broadcastInDim S100000x64 ![] bcast_S_S100000x64 (constant S_ .f32 0x00000000#32))
      (broadcastInDim S2000000x1 ![0] bcast_S2000000_S2000000x1_0 idx) src)
    (broadcastInDim S100000x64 ![0, 1] bcast_S100000x1_S100000x64_0_1
      (maximumf
        (Host.scatterAdd scatter_S100000x1_S2000000x1_S2000000x1_1_0_0_1
          (broadcastInDim S100000x1 ![] bcast_S_S100000x1 (constant S_ .f32 0x00000000#32))
          (broadcastInDim S2000000x1 ![0] bcast_S2000000_S2000000x1_0 idx)
          (broadcastInDim S2000000x1 ![] bcast_S_S2000000x1 (constant S_ .f32 0x3F800000#32)))
        (broadcastInDim S100000x1 ![] bcast_S_S100000x1 (constant S_ .f32 0x3F800000#32))))

/-- The per-user mean of the feedback rows. -/
def aggFb (src : FVec Ideal S1000000x64 .f32) (idx : IVec S1000000 32) : FVec Ideal S100000x64 .f32 :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 idx) src)
    (broadcastInDim S100000x64 ![0, 1] bcast_S100000x1_S100000x64_0_1
      (maximumf
        (Host.scatterAdd scatter_S100000x1_S1000000x1_S1000000x1_1_0_0_1
          (broadcastInDim S100000x1 ![] bcast_S_S100000x1 (constant S_ .f32 0x00000000#32))
          (broadcastInDim S1000000x1 ![0] bcast_S1000000_S1000000x1_0 idx)
          (broadcastInDim S1000000x1 ![] bcast_S_S1000000x1 (constant S_ .f32 0x3F800000#32)))
        (broadcastInDim S100000x1 ![] bcast_S_S100000x1 (constant S_ .f32 0x3F800000#32))))

section
variable (a0 : FVec Ideal S100000x128 .f32) (a1 : FVec Ideal S500000x64 .f32) (a2 : FVec Ideal S2000000x64 .f32)
  (a3 : FVec Ideal S1000000x32 .f32) (a4 : IVec S500000 32) (a5 : IVec S2000000 32) (a6 : IVec S1000000 32)
  (a7 : FVec Ideal S128x64 .f32) (a8 : FVec Ideal S64 .f32) (a9 : FVec Ideal S64x64 .f32) (a10 : FVec Ideal S64 .f32)
  (a11 : FVec Ideal S64x64 .f32) (a12 : FVec Ideal S64 .f32) (a13 : FVec Ideal S32x64 .f32) (a14 : FVec Ideal S64 .f32)
  (a15 : FVec Ideal S256x64 .f32) (a16 : FVec Ideal S64 .f32) (a17 : FVec Ideal S64x64 .f32) (a18 : FVec Ideal S64 .f32)
  (a19 : FVec Ideal S64x1 .f32) (a20 : FVec Ideal S1 .f32)

/-- The fused hidden layer. -/
def hidden : FVec Ideal S100000x64 .f32 :=
  Spec.fuse (Spec.dense a0 a7 a8) (aggSess (Spec.dense a1 a9 a10) a4) (aggMsg (Spec.dense a2 a11 a12) a5)
    (aggFb (Spec.dense a3 a13 a14) a6)
    (Spec.rows a15 0 (by decide)) (Spec.rows a15 64 (by decide)) (Spec.rows a15 128 (by decide)) (Spec.rows a15 192 (by decide)) a16

/-- The user embedding. -/
def emb : FVec Ideal S100000x64 .f32 :=
  Spec.dense (hidden a0 a1 a2 a3 a4 a5 a6 a7 a8 a9 a10 a11 a12 a13 a14 a15 a16) a17 a18

/-- The logits, one per user. -/
def logits : FVec Ideal S100000 .f32 :=
  Spec.column (Spec.affine (emb a0 a1 a2 a3 a4 a5 a6 a7 a8 a9 a10 a11 a12 a13 a14 a15 a16 a17 a18) a19 a20)

end

end Cert.Net

end
-- ==== Proof.KChain.lean ====
/-
  The fold through @main's segments, read at the two result arrays.

  An argument array is written by no host operation and by no region, so it holds its launch contents at every
  boundary. Each projection region's output array is written once, by that region, and carried unchanged to where it
  is read. The long host stretch between the projections and the head computes the three per-user means, cuts the
  fusing weight into its four blocks of 64 rows and lays the three bias vectors out as one-row matrices. The head then
  leaves the embedding and the one-column logits, and the last host operation lays the logits out as a vector.
-/
import proofs.«163695_j53068615909745_1_alg».proof.Proof.KReg0
import proofs.«163695_j53068615909745_1_alg».proof.Proof.KReg1
import proofs.«163695_j53068615909745_1_alg».proof.Proof.KReg2
import proofs.«163695_j53068615909745_1_alg».proof.Proof.KReg3
import proofs.«163695_j53068615909745_1_alg».proof.Proof.KReg4
import proofs.«163695_j53068615909745_1_alg».proof.Proof.Net
import Idealize.ShloMosaic.Lib.Pipeline.Value
import Idealize.ShloMosaic.Lib.Tactic
import Idealize.ShloMosaic.Lib.ValueLayout
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-- A buffer that no operation of a host stretch writes holds after the stretch what it held before. -/
macro "host_keep " ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The argument arrays at every boundary -/

/-- The twenty-one argument arrays. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- No operation of host stretch 0 writes an argument array. -/
theorem args_host0 (c : Dev nD) : ∀ b ∈ argRefs, W1 m ρ c (Proc.devRef .tc b) = W0 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals host_keep hostOps0

/-- Region 0 leaves every argument array as it found it: it writes none, and those it reads it only reads. -/
theorem args_reg0 (c : Dev nD) : ∀ b ∈ argRefs, W2 m ρ c (Proc.devRef .tc b) = W1 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
    | exact (W2_arr m ρ c 2).trans (((dat0 (V1 m ρ) c).arrAt_in 2 rfl _).trans (A_eq0 (V1 m ρ) c 2))

/-- No operation of host stretch 1 writes an argument array. -/
theorem args_host1 (c : Dev nD) : ∀ b ∈ argRefs, W3 m ρ c (Proc.devRef .tc b) = W2 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals host_keep hostOps1

/-- Region 1 leaves every argument array as it found it: it writes none, and those it reads it only reads. -/
theorem args_reg1 (c : Dev nD) : ∀ b ∈ argRefs, W4 m ρ c (Proc.devRef .tc b) = W3 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))

/-- No operation of host stretch 2 writes an argument array. -/
theorem args_host2 (c : Dev nD) : ∀ b ∈ argRefs, W5 m ρ c (Proc.devRef .tc b) = W4 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals host_keep hostOps2

/-- Region 2 leaves every argument array as it found it: it writes none, and those it reads it only reads. -/
theorem args_reg2 (c : Dev nD) : ∀ b ∈ argRefs, W6 m ρ c (Proc.devRef .tc b) = W5 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals first
    | exact W6_of_ne m ρ c _ (by decide)
    | exact (W6_arr m ρ c 0).trans (((dat2 (V5 m ρ) c).arrAt_in 0 rfl _).trans (A_eq2 (V5 m ρ) c 0))
    | exact (W6_arr m ρ c 1).trans (((dat2 (V5 m ρ) c).arrAt_in 1 rfl _).trans (A_eq2 (V5 m ρ) c 1))
    | exact (W6_arr m ρ c 2).trans (((dat2 (V5 m ρ) c).arrAt_in 2 rfl _).trans (A_eq2 (V5 m ρ) c 2))

/-- No operation of host stretch 3 writes an argument array. -/
theorem args_host3 (c : Dev nD) : ∀ b ∈ argRefs, W7 m ρ c (Proc.devRef .tc b) = W6 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals host_keep hostOps3

/-- Region 3 leaves every argument array as it found it: it writes none, and those it reads it only reads. -/
theorem args_reg3 (c : Dev nD) : ∀ b ∈ argRefs, W8 m ρ c (Proc.devRef .tc b) = W7 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals first
    | exact W8_of_ne m ρ c _ (by decide)
    | exact (W8_arr m ρ c 0).trans (((dat3 (V7 m ρ) c).arrAt_in 0 rfl _).trans (A_eq3 (V7 m ρ) c 0))
    | exact (W8_arr m ρ c 1).trans (((dat3 (V7 m ρ) c).arrAt_in 1 rfl _).trans (A_eq3 (V7 m ρ) c 1))
    | exact (W8_arr m ρ c 2).trans (((dat3 (V7 m ρ) c).arrAt_in 2 rfl _).trans (A_eq3 (V7 m ρ) c 2))

set_option maxHeartbeats 8000000 in
/-- No operation of host stretch 4 writes an argument array. -/
theorem args_host4 (c : Dev nD) : ∀ b ∈ argRefs, W9 m ρ c (Proc.devRef .tc b) = W8 m ρ c (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl
  all_goals host_keep hostOps4

/-! ## The arguments, by their literal types -/

abbrev A0 (c : Dev nD) : FVec Ideal S100000x128 .f32 := m ((c : Thread nD τ).loc main_arg0)
abbrev A1 (c : Dev nD) : FVec Ideal S500000x64 .f32 := m ((c : Thread nD τ).loc main_arg1)
abbrev A2 (c : Dev nD) : FVec Ideal S2000000x64 .f32 := m ((c : Thread nD τ).loc main_arg2)
abbrev A3 (c : Dev nD) : FVec Ideal S1000000x32 .f32 := m ((c : Thread nD τ).loc main_arg3)
abbrev A4 (c : Dev nD) : IVec S500000 32 := m ((c : Thread nD τ).loc main_arg4)
abbrev A5 (c : Dev nD) : IVec S2000000 32 := m ((c : Thread nD τ).loc main_arg5)
abbrev A6 (c : Dev nD) : IVec S1000000 32 := m ((c : Thread nD τ).loc main_arg6)
abbrev A7 (c : Dev nD) : FVec Ideal S128x64 .f32 := m ((c : Thread nD τ).loc main_arg7)
abbrev A8 (c : Dev nD) : FVec Ideal S64 .f32 := m ((c : Thread nD τ).loc main_arg8)
abbrev A9 (c : Dev nD) : FVec Ideal S64x64 .f32 := m ((c : Thread nD τ).loc main_arg9)
abbrev A10 (c : Dev nD) : FVec Ideal S64 .f32 := m ((c : Thread nD τ).loc main_arg10)
abbrev A11 (c : Dev nD) : FVec Ideal S64x64 .f32 := m ((c : Thread nD τ).loc main_arg11)
abbrev A12 (c : Dev nD) : FVec Ideal S64 .f32 := m ((c : Thread nD τ).loc main_arg12)
abbrev A13 (c : Dev nD) : FVec Ideal S32x64 .f32 := m ((c : Thread nD τ).loc main_arg13)
abbrev A14 (c : Dev nD) : FVec Ideal S64 .f32 := m ((c : Thread nD τ).loc main_arg14)
abbrev A15 (c : Dev nD) : FVec Ideal S256x64 .f32 := m ((c : Thread nD τ).loc main_arg15)
abbrev A16 (c : Dev nD) : FVec Ideal S64 .f32 := m ((c : Thread nD τ).loc main_arg16)
abbrev A17 (c : Dev nD) : FVec Ideal S64x64 .f32 := m ((c : Thread nD τ).loc main_arg17)
abbrev A18 (c : Dev nD) : FVec Ideal S64 .f32 := m ((c : Thread nD τ).loc main_arg18)
abbrev A19 (c : Dev nD) : FVec Ideal S64x1 .f32 := m ((c : Thread nD τ).loc main_arg19)
abbrev A20 (c : Dev nD) : FVec Ideal S1 .f32 := m ((c : Thread nD τ).loc main_arg20)

theorem arg_W1 (c : Dev nD) : ∀ b ∈ argRefs, W1 m ρ c (Proc.devRef .tc b) = m ((c : Thread nD τ).loc b) :=
  fun b hb => (args_host0 m ρ c b hb).trans rfl
theorem arg_W2 (c : Dev nD) : ∀ b ∈ argRefs, W2 m ρ c (Proc.devRef .tc b) = m ((c : Thread nD τ).loc b) :=
  fun b hb => (args_reg0 m ρ c b hb).trans (arg_W1 m ρ c b hb)
theorem arg_W3 (c : Dev nD) : ∀ b ∈ argRefs, W3 m ρ c (Proc.devRef .tc b) = m ((c : Thread nD τ).loc b) :=
  fun b hb => (args_host1 m ρ c b hb).trans (arg_W2 m ρ c b hb)
theorem arg_W4 (c : Dev nD) : ∀ b ∈ argRefs, W4 m ρ c (Proc.devRef .tc b) = m ((c : Thread nD τ).loc b) :=
  fun b hb => (args_reg1 m ρ c b hb).trans (arg_W3 m ρ c b hb)
theorem arg_W5 (c : Dev nD) : ∀ b ∈ argRefs, W5 m ρ c (Proc.devRef .tc b) = m ((c : Thread nD τ).loc b) :=
  fun b hb => (args_host2 m ρ c b hb).trans (arg_W4 m ρ c b hb)
theorem arg_W6 (c : Dev nD) : ∀ b ∈ argRefs, W6 m ρ c (Proc.devRef .tc b) = m ((c : Thread nD τ).loc b) :=
  fun b hb => (args_reg2 m ρ c b hb).trans (arg_W5 m ρ c b hb)
theorem arg_W7 (c : Dev nD) : ∀ b ∈ argRefs, W7 m ρ c (Proc.devRef .tc b) = m ((c : Thread nD τ).loc b) :=
  fun b hb => (args_host3 m ρ c b hb).trans (arg_W6 m ρ c b hb)
theorem arg_W8 (c : Dev nD) : ∀ b ∈ argRefs, W8 m ρ c (Proc.devRef .tc b) = m ((c : Thread nD τ).loc b) :=
  fun b hb => (args_reg3 m ρ c b hb).trans (arg_W7 m ρ c b hb)
theorem arg_W9 (c : Dev nD) : ∀ b ∈ argRefs, W9 m ρ c (Proc.devRef .tc b) = m ((c : Thread nD τ).loc b) :=
  fun b hb => (args_host4 m ρ c b hb).trans (arg_W8 m ρ c b hb)

/-! ## Layouts -/

/-- A vector laid out as a one-row matrix, read back along its row, is the vector. -/
theorem firstRow_reshape {N : Nat} (a : FVec Ideal ⟨1, ![N]⟩ .f32) (h : (⟨1, ![N]⟩ : Shape).ShapeCasts ⟨2, ![1, N]⟩) :
    Spec.firstRow (shapeCast ⟨2, ![1, N]⟩ a h) = a := by
  funext j
  obtain ⟨q, rfl⟩ : ∃ q : Fin N, j = ix1 q := ⟨j 0, eq_ix1 j⟩
  exact shapeCast_a_1a_apply a h 0 q

/-- A one-column matrix laid out as a vector is its column. -/
theorem reshape_column {M : Nat} (v : FVec Ideal ⟨2, ![M, 1]⟩ .f32) (h : (⟨2, ![M, 1]⟩ : Shape).ShapeCasts ⟨1, ![M]⟩) :
    shapeCast ⟨1, ![M]⟩ v h = Spec.column v := by
  funext j
  obtain ⟨p, rfl⟩ : ∃ p : Fin M, j = ix1 p := ⟨j 0, eq_ix1 j⟩
  refine shapeCast_apply v h _ _ ?_
  rw [Shape.rowMajor_val_two, Shape.rowMajor_val_one]
  show p.val * 1 + 0 = p.val
  omega

/-- A slice of 64 rows of a 256-row matrix, from row o on, is those rows. -/
theorem slice_rows {N : Nat} (w : FVec Ideal ⟨2, ![256, N]⟩ .f32) (o : Nat) (ho : o + 64 ≤ 256)
    (h : (⟨2, ![256, N]⟩ : Shape).Slices ![o, 0] ⟨2, ![64, N]⟩) :
    extractStridedSlice ⟨2, ![64, N]⟩ ![o, 0] w h = Spec.rows w o ho := by
  funext j
  obtain ⟨κ, q, rfl⟩ : ∃ (κ : Fin 64) (q : Fin N), j = ix2 κ q := ⟨j 0, j 1, eq_ix2 j⟩
  refine extractStridedSlice_apply _ w h _ _ fun a => ?_
  match a with
  | ⟨0, _⟩ => rfl
  | ⟨1, _⟩ => show q.val = 0 + q.val; omega

/-! ## The projections' outputs -/

/-- The one-row bias region 0 reads is argument 8's vector laid out as a row. -/
theorem bias0_eq (c : Dev nD) : W1 m ρ c (Proc.devRef .tc main_v0) = shapeCast S1x64 (A8 m c) shapeCasts_S64_S1x64 := by
  show StableHlo.after hostOps0 (W0 m ρ c) (Proc.devRef .tc main_v0) = _
  dsimp only [hostOps0]
  after_results
  exact congrArg (fun z => shapeCast S1x64 z shapeCasts_S64_S1x64) (rfl)

/-- After region 0 its output holds the user projection. -/
theorem out_user (c : Dev nD) : W2 m ρ c (Proc.devRef .tc main_v1) = Spec.dense (A0 m c) (A7 m c) (A8 m c) := by
  refine (W2_arr m ρ c 3).trans ((final0 (V1 m ρ) c).trans ?_)
  have hx : x0 (V1 m ρ) c = A0 m c := arg_W1 m ρ c main_arg0 (by decide : main_arg0 ∈ argRefs)
  have hw : w0 (V1 m ρ) c = A7 m c := arg_W1 m ρ c main_arg7 (by decide : main_arg7 ∈ argRefs)
  have hb : Spec.firstRow (b0 (V1 m ρ) c) = A8 m c :=
    (congrArg Spec.firstRow (bias0_eq m ρ c)).trans (firstRow_reshape _ _)
  show Spec.dense (x0 (V1 m ρ) c) (w0 (V1 m ρ) c) (Spec.firstRow (b0 (V1 m ρ) c)) = _
  rw [hx, hw, hb]

/-- The one-row bias region 1 reads is argument 10's vector laid out as a row. -/
theorem bias1_eq (c : Dev nD) : W3 m ρ c (Proc.devRef .tc main_v2) = shapeCast S1x64 (A10 m c) shapeCasts_S64_S1x64 := by
  show StableHlo.after hostOps1 (W2 m ρ c) (Proc.devRef .tc main_v2) = _
  dsimp only [hostOps1]
  after_results
  exact congrArg (fun z => shapeCast S1x64 z shapeCasts_S64_S1x64) (arg_W2 m ρ c main_arg10 (by decide : main_arg10 ∈ argRefs))

/-- After region 1 its output holds the session projection. -/
theorem out_sess (c : Dev nD) : W4 m ρ c (Proc.devRef .tc main_v3) = Spec.dense (A1 m c) (A9 m c) (A10 m c) := by
  refine (W4_arr m ρ c 3).trans ((final1 (V3 m ρ) c).trans ?_)
  have hx : x1 (V3 m ρ) c = A1 m c := arg_W3 m ρ c main_arg1 (by decide : main_arg1 ∈ argRefs)
  have hw : w1 (V3 m ρ) c = A9 m c := arg_W3 m ρ c main_arg9 (by decide : main_arg9 ∈ argRefs)
  have hb : Spec.firstRow (b1 (V3 m ρ) c) = A10 m c :=
    (congrArg Spec.firstRow (bias1_eq m ρ c)).trans (firstRow_reshape _ _)
  show Spec.dense (x1 (V3 m ρ) c) (w1 (V3 m ρ) c) (Spec.firstRow (b1 (V3 m ρ) c)) = _
  rw [hx, hw, hb]

/-- The one-row bias region 2 reads is argument 12's vector laid out as a row. -/
theorem bias2_eq (c : Dev nD) : W5 m ρ c (Proc.devRef .tc main_v4) = shapeCast S1x64 (A12 m c) shapeCasts_S64_S1x64 := by
  show StableHlo.after hostOps2 (W4 m ρ c) (Proc.devRef .tc main_v4) = _
  dsimp only [hostOps2]
  after_results
  exact congrArg (fun z => shapeCast S1x64 z shapeCasts_S64_S1x64) (arg_W4 m ρ c main_arg12 (by decide : main_arg12 ∈ argRefs))

/-- After region 2 its output holds the message projection. -/
theorem out_msg (c : Dev nD) : W6 m ρ c (Proc.devRef .tc main_v5) = Spec.dense (A2 m c) (A11 m c) (A12 m c) := by
  refine (W6_arr m ρ c 3).trans ((final2 (V5 m ρ) c).trans ?_)
  have hx : x2 (V5 m ρ) c = A2 m c := arg_W5 m ρ c main_arg2 (by decide : main_arg2 ∈ argRefs)
  have hw : w2 (V5 m ρ) c = A11 m c := arg_W5 m ρ c main_arg11 (by decide : main_arg11 ∈ argRefs)
  have hb : Spec.firstRow (b2 (V5 m ρ) c) = A12 m c :=
    (congrArg Spec.firstRow (bias2_eq m ρ c)).trans (firstRow_reshape _ _)
  show Spec.dense (x2 (V5 m ρ) c) (w2 (V5 m ρ) c) (Spec.firstRow (b2 (V5 m ρ) c)) = _
  rw [hx, hw, hb]

/-- The one-row bias region 3 reads is argument 14's vector laid out as a row. -/
theorem bias3_eq (c : Dev nD) : W7 m ρ c (Proc.devRef .tc main_v6) = shapeCast S1x64 (A14 m c) shapeCasts_S64_S1x64 := by
  show StableHlo.after hostOps3 (W6 m ρ c) (Proc.devRef .tc main_v6) = _
  dsimp only [hostOps3]
  after_results
  exact congrArg (fun z => shapeCast S1x64 z shapeCasts_S64_S1x64) (arg_W6 m ρ c main_arg14 (by decide : main_arg14 ∈ argRefs))

/-- After region 3 its output holds the feedback projection. -/
theorem out_fb (c : Dev nD) : W8 m ρ c (Proc.devRef .tc main_v7) = Spec.dense (A3 m c) (A13 m c) (A14 m c) := by
  refine (W8_arr m ρ c 3).trans ((final3 (V7 m ρ) c).trans ?_)
  have hx : x3 (V7 m ρ) c = A3 m c := arg_W7 m ρ c main_arg3 (by decide : main_arg3 ∈ argRefs)
  have hw : w3 (V7 m ρ) c = A13 m c := arg_W7 m ρ c main_arg13 (by decide : main_arg13 ∈ argRefs)
  have hb : Spec.firstRow (b3 (V7 m ρ) c) = A14 m c :=
    (congrArg Spec.firstRow (bias3_eq m ρ c)).trans (firstRow_reshape _ _)
  show Spec.dense (x3 (V7 m ρ) c) (w3 (V7 m ρ) c) (Spec.firstRow (b3 (V7 m ρ) c)) = _
  rw [hx, hw, hb]

/-! ## The projections' outputs, carried to where they are read -/

/-- The user projection is written by region 0 only: it reaches the head as region 0 left it. -/
theorem carry_user (c : Dev nD) : W9 m ρ c (Proc.devRef .tc main_v1) = W2 m ρ c (Proc.devRef .tc main_v1) :=
  calc W9 m ρ c (Proc.devRef .tc main_v1)
    _ = W8 m ρ c (Proc.devRef .tc main_v1) := by host_keep hostOps4
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1

/-- The session projection reaches the long host stretch as region 1 left it. -/
theorem carry_sess (c : Dev nD) : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2

/-- The message projection reaches the long host stretch as region 2 left it. -/
theorem carry_msg (c : Dev nD) : W8 m ρ c (Proc.devRef .tc main_v5) = W6 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := by host_keep hostOps3

/-! ## What the long host stretch computes -/

/-- The session mean, of the buffers the stretch reads. -/
theorem raw_mean_sess (c : Dev nD) : W9 m ρ c (Proc.devRef .tc main_v18) = Net.aggSess (W8 m ρ c (Proc.devRef .tc main_v3)) (W8 m ρ c (Proc.devRef .tc main_arg4)) := by
  show StableHlo.after hostOps4 (W8 m ρ c) (Proc.devRef .tc main_v18) = _
  dsimp only [hostOps4]
  after_results
  all_goals rfl

set_option maxHeartbeats 4000000 in
/-- The message mean, of the buffers the stretch reads. -/
theorem raw_mean_msg (c : Dev nD) : W9 m ρ c (Proc.devRef .tc main_v29) = Net.aggMsg (W8 m ρ c (Proc.devRef .tc main_v5)) (W8 m ρ c (Proc.devRef .tc main_arg5)) := by
  show StableHlo.after hostOps4 (W8 m ρ c) (Proc.devRef .tc main_v29) = _
  dsimp only [hostOps4]
  after_results
  all_goals rfl

set_option maxHeartbeats 4000000 in
/-- The feedback mean, of the buffers the stretch reads. -/
theorem raw_mean_fb (c : Dev nD) : W9 m ρ c (Proc.devRef .tc main_v40) = Net.aggFb (W8 m ρ c (Proc.devRef .tc main_v7)) (W8 m ρ c (Proc.devRef .tc main_arg6)) := by
  show StableHlo.after hostOps4 (W8 m ρ c) (Proc.devRef .tc main_v40) = _
  dsimp only [hostOps4]
  after_results
  all_goals rfl

/-- Rows 0 … 63 of the fusing weight. -/
theorem raw_slice0 (c : Dev nD) : W9 m ρ c (Proc.devRef .tc main_v41) = extractStridedSlice S64x64 ![0, 0] (W8 m ρ c (Proc.devRef .tc main_arg15)) slices_S256x64_S64x64_0_0 := by
  show StableHlo.after hostOps4 (W8 m ρ c) (Proc.devRef .tc main_v41) = _
  dsimp only [hostOps4]
  after_results
  all_goals rfl

/-- Rows 64 … 127 of the fusing weight. -/
theorem raw_slice1 (c : Dev nD) : W9 m ρ c (Proc.devRef .tc main_v42) = extractStridedSlice S64x64 ![64, 0] (W8 m ρ c (Proc.devRef .tc main_arg15)) slices_S256x64_S64x64_64_0 := by
  show StableHlo.after hostOps4 (W8 m ρ c) (Proc.devRef .tc main_v42) = _
  dsimp only [hostOps4]
  after_results
  all_goals rfl

/-- Rows 128 … 191 of the fusing weight. -/
theorem raw_slice2 (c : Dev nD) : W9 m ρ c (Proc.devRef .tc main_v43) = extractStridedSlice S64x64 ![128, 0] (W8 m ρ c (Proc.devRef .tc main_arg15)) slices_S256x64_S64x64_128_0 := by
  show StableHlo.after hostOps4 (W8 m ρ c) (Proc.devRef .tc main_v43) = _
  dsimp only [hostOps4]
  after_results
  all_goals rfl

/-- Rows 192 … 255 of the fusing weight. -/
theorem raw_slice3 (c : Dev nD) : W9 m ρ c (Proc.devRef .tc main_v44) = extractStridedSlice S64x64 ![192, 0] (W8 m ρ c (Proc.devRef .tc main_arg15)) slices_S256x64_S64x64_192_0 := by
  show StableHlo.after hostOps4 (W8 m ρ c) (Proc.devRef .tc main_v44) = _
  dsimp only [hostOps4]
  after_results
  all_goals rfl

/-- The fusing bias as a row. -/
theorem raw_bias_f1 (c : Dev nD) : W9 m ρ c (Proc.devRef .tc main_v45) = shapeCast S1x64 (W8 m ρ c (Proc.devRef .tc main_arg16)) shapeCasts_S64_S1x64 := by
  show StableHlo.after hostOps4 (W8 m ρ c) (Proc.devRef .tc main_v45) = _
  dsimp only [hostOps4]
  after_results
  all_goals rfl

/-- The embedding bias as a row. -/
theorem raw_bias_f2 (c : Dev nD) : W9 m ρ c (Proc.devRef .tc main_v46) = shapeCast S1x64 (W8 m ρ c (Proc.devRef .tc main_arg18)) shapeCasts_S64_S1x64 := by
  show StableHlo.after hostOps4 (W8 m ρ c) (Proc.devRef .tc main_v46) = _
  dsimp only [hostOps4]
  after_results
  all_goals rfl

/-- The logit bias as a one-by-one matrix. -/
theorem raw_bias_c (c : Dev nD) : W9 m ρ c (Proc.devRef .tc main_v47) = shapeCast S1x1 (W8 m ρ c (Proc.devRef .tc main_arg20)) shapeCasts_S1_S1x1 := by
  show StableHlo.after hostOps4 (W8 m ρ c) (Proc.devRef .tc main_v47) = _
  dsimp only [hostOps4]
  after_results
  all_goals rfl

/-! ## The head -/

/-- The embedding of the arrays the head finds is the network's embedding of the arguments. -/
theorem emb4_eq (c : Dev nD) : emb4 (V9 m ρ) c = Net.emb (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) := by
  have h1 : u4 (V9 m ρ) c = Spec.dense (A0 m c) (A7 m c) (A8 m c) := (carry_user m ρ c).trans (out_user m ρ c)
  have h2 : s4 (V9 m ρ) c = Net.aggSess (Spec.dense (A1 m c) (A9 m c) (A10 m c)) (A4 m c) := by
    refine (raw_mean_sess m ρ c).trans ?_
    rw [carry_sess m ρ c, out_sess m ρ c, arg_W8 m ρ c main_arg4 (by decide : main_arg4 ∈ argRefs)]
  have h3 : t4 (V9 m ρ) c = Net.aggMsg (Spec.dense (A2 m c) (A11 m c) (A12 m c)) (A5 m c) := by
    refine (raw_mean_msg m ρ c).trans ?_
    rw [carry_msg m ρ c, out_msg m ρ c, arg_W8 m ρ c main_arg5 (by decide : main_arg5 ∈ argRefs)]
  have h4 : f4 (V9 m ρ) c = Net.aggFb (Spec.dense (A3 m c) (A13 m c) (A14 m c)) (A6 m c) := by
    refine (raw_mean_fb m ρ c).trans ?_
    rw [out_fb m ρ c, arg_W8 m ρ c main_arg6 (by decide : main_arg6 ∈ argRefs)]
  have hw0 : wu4 (V9 m ρ) c = Spec.rows (A15 m c) 0 (by decide) := by
    refine (raw_slice0 m ρ c).trans ?_
    rw [arg_W8 m ρ c main_arg15 (by decide : main_arg15 ∈ argRefs)]
    exact slice_rows (A15 m c) 0 (by decide) _
  have hw1 : ws4 (V9 m ρ) c = Spec.rows (A15 m c) 64 (by decide) := by
    refine (raw_slice1 m ρ c).trans ?_
    rw [arg_W8 m ρ c main_arg15 (by decide : main_arg15 ∈ argRefs)]
    exact slice_rows (A15 m c) 64 (by decide) _
  have hw2 : wt4 (V9 m ρ) c = Spec.rows (A15 m c) 128 (by decide) := by
    refine (raw_slice2 m ρ c).trans ?_
    rw [arg_W8 m ρ c main_arg15 (by decide : main_arg15 ∈ argRefs)]
    exact slice_rows (A15 m c) 128 (by decide) _
  have hw3 : wf4 (V9 m ρ) c = Spec.rows (A15 m c) 192 (by decide) := by
    refine (raw_slice3 m ρ c).trans ?_
    rw [arg_W8 m ρ c main_arg15 (by decide : main_arg15 ∈ argRefs)]
    exact slice_rows (A15 m c) 192 (by decide) _
  have hb1 : Spec.firstRow (b14 (V9 m ρ) c) = A16 m c := by
    refine (congrArg Spec.firstRow ((raw_bias_f1 m ρ c).trans ?_)).trans (firstRow_reshape (A16 m c) shapeCasts_S64_S1x64)
    rw [arg_W8 m ρ c main_arg16 (by decide : main_arg16 ∈ argRefs)]
  have hwe : w24 (V9 m ρ) c = A17 m c := arg_W9 m ρ c main_arg17 (by decide : main_arg17 ∈ argRefs)
  have hb2 : Spec.firstRow (b24 (V9 m ρ) c) = A18 m c := by
    refine (congrArg Spec.firstRow ((raw_bias_f2 m ρ c).trans ?_)).trans (firstRow_reshape (A18 m c) shapeCasts_S64_S1x64)
    rw [arg_W8 m ρ c main_arg18 (by decide : main_arg18 ∈ argRefs)]
  show Spec.dense (Spec.fuse (u4 (V9 m ρ) c) (s4 (V9 m ρ) c) (t4 (V9 m ρ) c) (f4 (V9 m ρ) c) (wu4 (V9 m ρ) c) (ws4 (V9 m ρ) c)
      (wt4 (V9 m ρ) c) (wf4 (V9 m ρ) c) (Spec.firstRow (b14 (V9 m ρ) c))) (w24 (V9 m ρ) c) (Spec.firstRow (b24 (V9 m ρ) c)) = _
  rw [h1, h2, h3, h4, hw0, hw1, hw2, hw3, hb1, hwe, hb2]
  rfl

/-- After the head its first output array holds the network's embedding. -/
theorem head_emb (c : Dev nD) : W10 m ρ c (Proc.devRef .tc main_v48_0) = Net.emb (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) :=
  (W10_arr m ρ c 13).trans ((final4_emb (V9 m ρ) c).trans (emb4_eq m ρ c))

/-- After the head its second output array holds the one-column logits. -/
theorem head_logit (c : Dev nD) : W10 m ρ c (Proc.devRef .tc main_v48_1) = Spec.affine (Net.emb (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c)) (A19 m c) (A20 m c) := by
  refine (W10_arr m ρ c 14).trans ((final4_logit (V9 m ρ) c).trans ?_)
  have hwc : wc4 (V9 m ρ) c = A19 m c := arg_W9 m ρ c main_arg19 (by decide : main_arg19 ∈ argRefs)
  have hbc : Spec.firstRow (bc4 (V9 m ρ) c) = A20 m c := by
    refine (congrArg Spec.firstRow ((raw_bias_c m ρ c).trans ?_)).trans (firstRow_reshape (A20 m c) shapeCasts_S1_S1x1)
    rw [arg_W8 m ρ c main_arg20 (by decide : main_arg20 ∈ argRefs)]
  show Spec.affine (emb4 (V9 m ρ) c) (wc4 (V9 m ρ) c) (Spec.firstRow (bc4 (V9 m ρ) c)) = _
  rw [emb4_eq m ρ c, hwc, hbc]

/-! ## The two results -/

/-- The embedding result: the last host operation does not touch it. -/
theorem result_emb (c : Dev nD) : W11 m ρ c (Proc.devRef .tc main_v48_0) = Net.emb (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) :=
  (by host_keep hostOps5 : W11 m ρ c (Proc.devRef .tc main_v48_0) = W10 m ρ c (Proc.devRef .tc main_v48_0)).trans (head_emb m ρ c)

/-- The logits result: the one-column logits laid out as a vector. -/
theorem result_logits (c : Dev nD) : W11 m ρ c (Proc.devRef .tc main_v49) = Net.logits (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) := by
  have h : W11 m ρ c (Proc.devRef .tc main_v49) = shapeCast S100000 (W10 m ρ c (Proc.devRef .tc main_v48_1)) shapeCasts_S100000x1_S100000 := by
    show StableHlo.after hostOps5 (W10 m ρ c) (Proc.devRef .tc main_v49) = _
    dsimp only [hostOps5]
    after_results
    rfl
  rw [h, head_logit m ρ c]
  exact reshape_column _ _

end Cert.KernelIdeal.Hand

end
-- ==== Proof.RefValue.lean ====
/-
  The reference's two results are the network's embedding and logits of its arguments.
-/
import proofs.«163695_j53068615909745_1_alg».proof.Proof.Gen.ReferenceIdeal.Read
import proofs.«163695_j53068615909745_1_alg».proof.Proof.Net
import proofs.«163695_j53068615909745_1_alg».proof.Proof.LibDense

set_option maxRecDepth 16384

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen

/-- A dense layer with rectifier, in the host's spelling, is the layer of the specification. -/
theorem host_dense_eq {M K N : Nat} (d : DotDims ⟨2, ![M, K]⟩ ⟨2, ![K, N]⟩ ⟨2, ![M, N]⟩) (hd : PlainDot.IsPlain d)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![])
    (x : FVec Ideal ⟨2, ![M, K]⟩ .f32) (w : FVec Ideal ⟨2, ![K, N]⟩ .f32) (b : FVec Ideal ⟨1, ![N]⟩ .f32) :
    maximumf (addf (Host.dotGeneral d none x w) (broadcastInDim ⟨2, ![M, N]⟩ ![0, 1] h2 (broadcastInDim ⟨2, ![1, N]⟩ ![1] h1 b)))
        (broadcastInDim ⟨2, ![M, N]⟩ ![] h0 (constant ⟨0, ![]⟩ .f32 0x00000000#32))
      = Cert.Spec.dense x w b := by
  funext i
  obtain ⟨p, q, rfl⟩ : ∃ (p : Fin M) (q : Fin N), i = ix2 p q := ⟨i 0, i 1, eq_ix2 i⟩
  rw [Dense.host_relu_apply, Dense.host_affine_apply d hd, Cert.Spec.dense_apply]

/-- A dense layer without rectifier, in the host's spelling, is the affine map of the specification. -/
theorem host_affine_eq {M K N : Nat} (d : DotDims ⟨2, ![M, K]⟩ ⟨2, ![K, N]⟩ ⟨2, ![M, N]⟩) (hd : PlainDot.IsPlain d)
    (h1 : (⟨1, ![N]⟩ : Shape).BroadcastsInDim ⟨2, ![1, N]⟩ ![1]) (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) :
    addf (Host.dotGeneral d none x w) (broadcastInDim ⟨2, ![M, N]⟩ ![0, 1] h2 (broadcastInDim ⟨2, ![1, N]⟩ ![1] h1 b))
      = Cert.Spec.affine x w b := by
  funext i
  obtain ⟨p, q, rfl⟩ : ∃ (p : Fin M) (q : Fin N), i = ix2 p q := ⟨i 0, i 1, eq_ix2 i⟩
  rw [Dense.host_affine_apply d hd, Cert.Spec.affine_apply]

/-- The reference's per-user mean of the session rows is the network's. -/
theorem agg_sess_eq (src : FVec Ideal S500000x64 .f32) (idx : IVec S500000 32) :
    Host.divf (Host.scatterAdd scatter_S100000x64_S500000x1_S500000x64_1_0_0_1 (broadcastInDim S100000x64 ![] bcast_S_S100000x64 (constant S_ .f32 0x00000000#32)) (broadcastInDim S500000x1 ![0] bcast_S500000_S500000x1_0 idx) src) (broadcastInDim S100000x64 ![0, 1] bcast_S100000x1_S100000x64_0_1 (maximumf (Host.scatterAdd scatter_S100000x1_S500000x1_S500000x1_1_0_0_1 (broadcastInDim S100000x1 ![] bcast_S_S100000x1 (constant S_ .f32 0x00000000#32)) (broadcastInDim S500000x1 ![0] bcast_S500000_S500000x1_0 idx) (broadcastInDim S500000x1 ![] bcast_S_S500000x1 (constant S_ .f32 0x3F800000#32))) (broadcastInDim S100000x1 ![] bcast_S_S100000x1 (constant S_ .f32 0x3F800000#32))))
      = Cert.Net.aggSess src idx := rfl

/-- The reference's per-user mean of the message rows is the network's. -/
theorem agg_msg_eq (src : FVec Ideal S2000000x64 .f32) (idx : IVec S2000000 32) :
    Host.divf (Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 idx) src) (broadcastInDim S100000x64 ![0, 1] bcast_S100000x1_S100000x64_0_1 (maximumf (Host.scatterAdd scatter_S100000x1_S2000000x1_S2000000x1_1_0_0_1 (broadcastInDim S100000x1 ![] bcast_S_S100000x1 (constant S_ .f32 0x00000000#32)) (broadcastInDim S2000000x1 ![0] bcast_S2000000_S2000000x1_0 idx) (broadcastInDim S2000000x1 ![] bcast_S_S2000000x1 (constant S_ .f32 0x3F800000#32))) (broadcastInDim S100000x1 ![] bcast_S_S100000x1 (constant S_ .f32 0x3F800000#32))))
      = Cert.Net.aggMsg src idx := rfl

/-- The reference's per-user mean of the feedback rows is the network's. -/
theorem agg_fb_eq (src : FVec Ideal S1000000x64 .f32) (idx : IVec S1000000 32) :
    Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 idx) src) (broadcastInDim S100000x64 ![0, 1] bcast_S100000x1_S100000x64_0_1 (maximumf (Host.scatterAdd scatter_S100000x1_S1000000x1_S1000000x1_1_0_0_1 (broadcastInDim S100000x1 ![] bcast_S_S100000x1 (constant S_ .f32 0x00000000#32)) (broadcastInDim S1000000x1 ![0] bcast_S1000000_S1000000x1_0 idx) (broadcastInDim S1000000x1 ![] bcast_S_S1000000x1 (constant S_ .f32 0x3F800000#32))) (broadcastInDim S100000x1 ![] bcast_S_S100000x1 (constant S_ .f32 0x3F800000#32))))
      = Cert.Net.aggFb src idx := rfl

/-- Four arrays of 64 columns laid side by side, read in stretch j (j = 0, 1, 2, 3) at column 64 j + κ: the j-th array at column κ. -/
theorem cat4_apply {M : Nat} (x0 x1 x2 x3 : FVec Ideal ⟨2, ![M, 64]⟩ .f32)
    (h : Shape.Concatenates [(⟨2, ![M, 64]⟩ : Shape), ⟨2, ![M, 64]⟩, ⟨2, ![M, 64]⟩, ⟨2, ![M, 64]⟩] ⟨2, ![M, 256]⟩ 1)
    (p : Fin M) (κ : Fin 64) :
    concatenate ⟨2, ![M, 256]⟩ 1 [⟨⟨2, ![M, 64]⟩, x0⟩, ⟨⟨2, ![M, 64]⟩, x1⟩, ⟨⟨2, ![M, 64]⟩, x2⟩, ⟨⟨2, ![M, 64]⟩, x3⟩] h
        (ix2 p (⟨κ.val, by have := κ.isLt; omega⟩ : Fin 256)) = x0 (ix2 p κ)
    ∧ concatenate ⟨2, ![M, 256]⟩ 1 [⟨⟨2, ![M, 64]⟩, x0⟩, ⟨⟨2, ![M, 64]⟩, x1⟩, ⟨⟨2, ![M, 64]⟩, x2⟩, ⟨⟨2, ![M, 64]⟩, x3⟩] h
        (ix2 p (⟨64 + κ.val, by have := κ.isLt; omega⟩ : Fin 256)) = x1 (ix2 p κ)
    ∧ concatenate ⟨2, ![M, 256]⟩ 1 [⟨⟨2, ![M, 64]⟩, x0⟩, ⟨⟨2, ![M, 64]⟩, x1⟩, ⟨⟨2, ![M, 64]⟩, x2⟩, ⟨⟨2, ![M, 64]⟩, x3⟩] h
        (ix2 p (⟨128 + κ.val, by have := κ.isLt; omega⟩ : Fin 256)) = x2 (ix2 p κ)
    ∧ concatenate ⟨2, ![M, 256]⟩ 1 [⟨⟨2, ![M, 64]⟩, x0⟩, ⟨⟨2, ![M, 64]⟩, x1⟩, ⟨⟨2, ![M, 64]⟩, x2⟩, ⟨⟨2, ![M, 64]⟩, x3⟩] h
        (ix2 p (⟨192 + κ.val, by have := κ.isLt; omega⟩ : Fin 256)) = x3 (ix2 p κ) := by
  have hi : ∀ (c : Fin 256) (b : Fin 2), b.cast rfl ≠ (1 : Fin 2) → (ix2 p κ b).val = (ix2 p c (b.cast rfl)).val := fun c b hb => by
    match b with
    | ⟨0, _⟩ => rfl
    | ⟨1, _⟩ => exact absurd rfl hb
  have key : ∀ (k : Nat) (hk : k < 4) (x₁ : FVec Ideal ⟨2, ![M, 64]⟩ .f32) (pre : Nat) (c : Fin 256),
      ([(⟨⟨2, ![M, 64]⟩, x0⟩ : (s : Shape) × (s.Idx → Ideal .f32)), ⟨⟨2, ![M, 64]⟩, x1⟩, ⟨⟨2, ![M, 64]⟩, x2⟩, ⟨⟨2, ![M, 64]⟩, x3⟩])[k] = ⟨⟨2, ![M, 64]⟩, x₁⟩ →
      64 * k = pre → pre + κ.val = c.val →
      concatenate ⟨2, ![M, 256]⟩ 1 [⟨⟨2, ![M, 64]⟩, x0⟩, ⟨⟨2, ![M, 64]⟩, x1⟩, ⟨⟨2, ![M, 64]⟩, x2⟩, ⟨⟨2, ![M, 64]⟩, x3⟩] h (ix2 p c) = x₁ (ix2 p κ) := by
    intro k hk x₁ pre c hxk hpre hc
    refine concatenate_apply_piece (t := ⟨2, ![M, 256]⟩) (1 : Fin 2) [⟨⟨2, ![M, 64]⟩, x0⟩, ⟨⟨2, ![M, 64]⟩, x1⟩, ⟨⟨2, ![M, 64]⟩, x2⟩, ⟨⟨2, ![M, 64]⟩, x3⟩] h (ix2 p c) k hk
      ⟨2, ![M, 64]⟩ x₁ hxk rfl pre ?_ (ix2 p κ) (hi c) hc
    subst hpre
    match k, hk with
    | 0, _ => rfl
    | 1, _ => rfl
    | 2, _ => rfl
    | 3, _ => rfl
  exact ⟨key 0 (by decide) x0 0 _ rfl rfl (Nat.zero_add _), key 1 (by decide) x1 64 _ rfl rfl rfl,
    key 2 (by decide) x2 128 _ rfl rfl rfl, key 3 (by decide) x3 192 _ rfl rfl rfl⟩

/-- The fusing layer in the host's spelling: the product of the four arrays laid side by side with the 256-row weight,
    plus the bias, rectified, is the sum of the four products with the four blocks of 64 rows, plus the bias, rectified. -/
theorem host_fuse_eq {M N : Nat} (d : DotDims ⟨2, ![M, 256]⟩ ⟨2, ![256, N]⟩ ⟨2, ![M, N]⟩) (hd : PlainDot.IsPlain d)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![])
    (hc : Shape.Concatenates [(⟨2, ![M, 64]⟩ : Shape), ⟨2, ![M, 64]⟩, ⟨2, ![M, 64]⟩, ⟨2, ![M, 64]⟩] ⟨2, ![M, 256]⟩ 1)
    (u s t f : FVec Ideal ⟨2, ![M, 64]⟩ .f32) (w : FVec Ideal ⟨2, ![256, N]⟩ .f32) (b : FVec Ideal ⟨1, ![N]⟩ .f32) :
    maximumf (addf (Host.dotGeneral d none
          (concatenate ⟨2, ![M, 256]⟩ 1 [⟨⟨2, ![M, 64]⟩, u⟩, ⟨⟨2, ![M, 64]⟩, s⟩, ⟨⟨2, ![M, 64]⟩, t⟩, ⟨⟨2, ![M, 64]⟩, f⟩] hc) w)
        (broadcastInDim ⟨2, ![M, N]⟩ ![0, 1] h2 (broadcastInDim ⟨2, ![1, N]⟩ ![1] h1 b)))
        (broadcastInDim ⟨2, ![M, N]⟩ ![] h0 (constant ⟨0, ![]⟩ .f32 0x00000000#32))
      = Cert.Spec.fuse u s t f (Cert.Spec.rows w 0 (by decide)) (Cert.Spec.rows w 64 (by decide)) (Cert.Spec.rows w 128 (by decide))
          (Cert.Spec.rows w 192 (by decide)) b := by
  funext i
  obtain ⟨p, q, rfl⟩ : ∃ (p : Fin M) (q : Fin N), i = ix2 p q := ⟨i 0, i 1, eq_ix2 i⟩
  rw [Dense.host_relu_apply, Dense.host_affine_apply d hd, Cert.Spec.fuse_apply, Cert.Spec.sum_fin256]
  have e := fun κ : Fin 64 => cat4_apply u s t f hc p κ
  have r0 : ∀ κ : Fin 64, Cert.Spec.rows w 0 (by decide) (ix2 κ q) = w (ix2 (⟨κ.val, by have := κ.isLt; omega⟩ : Fin 256) q) := fun κ =>
    congrArg (fun c : Fin 256 => w (ix2 c q)) (Fin.ext (Nat.zero_add κ.val))
  simp only [fun κ => (e κ).1, fun κ => (e κ).2.1, fun κ => (e κ).2.2.1, fun κ => (e κ).2.2.2, r0]
  rfl

/-- A one-column matrix cast to a vector is its column. -/
theorem column_eq {M : Nat} (v : FVec Ideal ⟨2, ![M, 1]⟩ .f32) (h : (⟨2, ![M, 1]⟩ : Shape).ShapeCasts ⟨1, ![M]⟩) :
    shapeCast ⟨1, ![M]⟩ v h = Cert.Spec.column v := by
  funext j
  refine shapeCast_apply v h j (ix2 (j 0) (0 : Fin 1)) ?_
  rw [Shape.rowMajor_val_two, Shape.rowMajor_val_one]
  show (j 0).val * 1 + 0 = (j 0).val
  omega

/-- The user projection: 100000 rows of 128 features to 64. -/
theorem dense_user (x : FVec Ideal S100000x128 .f32) (w : FVec Ideal S128x64 .f32) (b : FVec Ideal S64 .f32) :
    maximumf (addf (Host.dotGeneral dot_S100000x128_S128x64_S100000x64_1_0_0_1_n_n none x w) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Cert.Spec.dense x w b :=
  host_dense_eq _ ⟨rfl, rfl, rfl, rfl, rfl, rfl⟩ _ _ _ x w b

/-- The session projection: 500000 rows of 64 features to 64. -/
theorem dense_sess (x : FVec Ideal S500000x64 .f32) (w : FVec Ideal S64x64 .f32) (b : FVec Ideal S64 .f32) :
    maximumf (addf (Host.dotGeneral dot_S500000x64_S64x64_S500000x64_1_0_0_1_n_n none x w) (broadcastInDim S500000x64 ![0, 1] bcast_S1x64_S500000x64_0_1 (broadcastInDim S1x64 ![1] bcast_S64_S1x64_1 b))) (broadcastInDim S500000x64 ![] bcast_S_S500000x64 (constant S_ .f32 0x00000000#32))
      = Cert.Spec.dense x w b :=
  host_dense_eq _ ⟨rfl, rfl, rfl, rfl, rfl, rfl⟩ _ _ _ x w b

/-- The message projection: 2000000 rows of 64 features to 64. -/
theorem dense_msg (x : FVec Ideal S2000000x64 .f32) (w : FVec Ideal S64x64 .f32) (b : FVec Ideal S64 .f32) :
    maximumf (addf (Host.dotGeneral dot_S2000000x64_S64x64_S2000000x64_1_0_0_1_n_n none x w) (broadcastInDim S2000000x64 ![0, 1] bcast_S1x64_S2000000x64_0_1 (broadcastInDim S1x64 ![1] bcast_S64_S1x64_1 b))) (broadcastInDim S2000000x64 ![] bcast_S_S2000000x64 (constant S_ .f32 0x00000000#32))
      = Cert.Spec.dense x w b :=
  host_dense_eq _ ⟨rfl, rfl, rfl, rfl, rfl, rfl⟩ _ _ _ x w b

/-- The feedback projection: 1000000 rows of 32 features to 64. -/
theorem dense_fb (x : FVec Ideal S1000000x32 .f32) (w : FVec Ideal S32x64 .f32) (b : FVec Ideal S64 .f32) :
    maximumf (addf (Host.dotGeneral dot_S1000000x32_S32x64_S1000000x64_1_0_0_1_n_n none x w) (broadcastInDim S1000000x64 ![0, 1] bcast_S1x64_S1000000x64_0_1 (broadcastInDim S1x64 ![1] bcast_S64_S1x64_1 b))) (broadcastInDim S1000000x64 ![] bcast_S_S1000000x64 (constant S_ .f32 0x00000000#32))
      = Cert.Spec.dense x w b :=
  host_dense_eq _ ⟨rfl, rfl, rfl, rfl, rfl, rfl⟩ _ _ _ x w b

/-- The embedding layer: 100000 rows of 64 features to 64. -/
theorem dense_out (x : FVec Ideal S100000x64 .f32) (w : FVec Ideal S64x64 .f32) (b : FVec Ideal S64 .f32) :
    maximumf (addf (Host.dotGeneral dot_S100000x64_S64x64_S100000x64_1_0_0_1_n_n none x w) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Cert.Spec.dense x w b :=
  host_dense_eq _ ⟨rfl, rfl, rfl, rfl, rfl, rfl⟩ _ _ _ x w b

/-- The fusing layer of the reference: the four 64-feature arrays side by side, times the 256-row weight. -/
theorem fuse_ref (u s t f : FVec Ideal S100000x64 .f32) (w : FVec Ideal S256x64 .f32) (b : FVec Ideal S64 .f32) :
    maximumf (addf (Host.dotGeneral dot_S100000x256_S256x64_S100000x64_1_0_0_1_n_n none (concatenate S100000x256 1 [⟨S100000x64, u⟩, ⟨S100000x64, s⟩, ⟨S100000x64, t⟩, ⟨S100000x64, f⟩] concatenates_S100000x64_S100000x64_S100000x64_S100000x64_S100000x256_d1) w) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Cert.Spec.fuse u s t f (Cert.Spec.rows w 0 (by decide)) (Cert.Spec.rows w 64 (by decide)) (Cert.Spec.rows w 128 (by decide)) (Cert.Spec.rows w 192 (by decide)) b :=
  host_fuse_eq _ ⟨rfl, rfl, rfl, rfl, rfl, rfl⟩ _ _ _ _ u s t f w b

/-- The logit layer of the reference: 100000 rows of 64 features to one, no rectifier, read as a vector. -/
theorem logit_ref (x : FVec Ideal S100000x64 .f32) (w : FVec Ideal S64x1 .f32) (b : FVec Ideal S1 .f32) :
    shapeCast S100000 (addf (Host.dotGeneral dot_S100000x64_S64x1_S100000x1_1_0_0_1_n_n none x w) (broadcastInDim S100000x1 ![0, 1] bcast_S1x1_S100000x1_0_1 (broadcastInDim S1x1 ![1] bcast_S1_S1x1_1 b))) shapeCasts_S100000x1_S100000
      = Cert.Spec.column (Cert.Spec.affine x w b) := by
  rw [host_affine_eq _ ⟨rfl, rfl, rfl, rfl, rfl, rfl⟩ _ _ x w b]
  exact column_eq _ _

section Terms
variable (a0 : FVec Ideal S100000x128 .f32) (a1 : FVec Ideal S500000x64 .f32) (a2 : FVec Ideal S2000000x64 .f32)
  (a3 : FVec Ideal S1000000x32 .f32) (a4 : IVec S500000 32) (a5 : IVec S2000000 32) (a6 : IVec S1000000 32)
  (a7 : FVec Ideal S128x64 .f32) (a8 : FVec Ideal S64 .f32) (a9 : FVec Ideal S64x64 .f32) (a10 : FVec Ideal S64 .f32)
  (a11 : FVec Ideal S64x64 .f32) (a12 : FVec Ideal S64 .f32) (a13 : FVec Ideal S32x64 .f32) (a14 : FVec Ideal S64 .f32)
  (a15 : FVec Ideal S256x64 .f32) (a16 : FVec Ideal S64 .f32) (a17 : FVec Ideal S64x64 .f32) (a18 : FVec Ideal S64 .f32)
  (a19 : FVec Ideal S64x1 .f32) (a20 : FVec Ideal S1 .f32)

/-- The reference's embedding term, over arrays of the literal shapes, is the network's embedding. -/
theorem emb_term_eq :
    maximumf (addf (Host.dotGeneral dot_S100000x64_S64x64_S100000x64_1_0_0_1_n_n none (maximumf (addf (Host.dotGeneral dot_S100000x256_S256x64_S100000x64_1_0_0_1_n_n none (concatenate S100000x256 1 [⟨S100000x64, (maximumf (addf (Host.dotGeneral dot_S100000x128_S128x64_S100000x64_1_0_0_1_n_n none a0 a7) (broadcastInDim S100000x64 ![0, 1] bcast_S1x64_S100000x64_0_1 (broadcastInDim S1x64 ![1] bcast_S64_S1x64_1 a8))) (broadcastInDim S100000x64 ![] bcast_S_S100000x64 (constant S_ .f32 0x00000000#32)))⟩, ⟨S100000x64, (Host.divf (Host.scatterAdd scatter_S100000x64_S500000x1_S500000x64_1_0_0_1 (broadcastInDim S100000x64 ![] bcast_S_S100000x64 (constant S_ .f32 0x00000000#32)) (broadcastInDim S500000x1 ![0] bcast_S500000_S500000x1_0 a4) (maximumf (addf (Host.dotGeneral dot_S500000x64_S64x64_S500000x64_1_0_0_1_n_n none a1 a9) (broadcastInDim S500000x64 ![0, 1] bcast_S1x64_S500000x64_0_1 (broadcastInDim S1x64 ![1] bcast_S64_S1x64_1 a10))) (broadcastInDim S500000x64 ![] bcast_S_S500000x64 (constant S_ .f32 0x00000000#32)))) (broadcastInDim S100000x64 ![0, 1] bcast_S100000x1_S100000x64_0_1 (maximumf (Host.scatterAdd scatter_S100000x1_S500000x1_S500000x1_1_0_0_1 (broadcastInDim S100000x1 ![] bcast_S_S100000x1 (constant S_ .f32 0x00000000#32)) (broadcastInDim S500000x1 ![0] bcast_S500000_S500000x1_0 a4) (broadcastInDim S500000x1 ![] bcast_S_S500000x1 (constant S_ .f32 0x3F800000#32))) (broadcastInDim S100000x1 ![] bcast_S_S100000x1 (constant S_ .f32 0x3F800000#32)))))⟩, ⟨S100000x64, (Host.divf (Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 a5) (maximumf (addf (Host.dotGeneral dot_S2000000x64_S64x64_S2000000x64_1_0_0_1_n_n none a2 a11) (broadcastInDim S2000000x64 ![0, 1] bcast_S1x64_S2000000x64_0_1 (broadcastInDim S1x64 ![1] bcast_S64_S1x64_1 a12))) (broadcastInDim S2000000x64 ![] bcast_S_S2000000x64 (constant S_ .f32 0x00000000#32)))) (broadcastInDim S100000x64 ![0, 1] bcast_S100000x1_S100000x64_0_1 (maximumf (Host.scatterAdd scatter_S100000x1_S2000000x1_S2000000x1_1_0_0_1 (broadcastInDim S100000x1 ![] bcast_S_S100000x1 (constant S_ .f32 0x00000000#32)) (broadcastInDim S2000000x1 ![0] bcast_S2000000_S2000000x1_0 a5) (broadcastInDim S2000000x1 ![] bcast_S_S2000000x1 (constant S_ .f32 0x3F800000#32))) (broadcastInDim S100000x1 ![] bcast_S_S100000x1 (constant S_ .f32 0x3F800000#32)))))⟩, ⟨S100000x64, (Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 a6) (maximumf (addf (Host.dotGeneral dot_S1000000x32_S32x64_S1000000x64_1_0_0_1_n_n none a3 a13) (broadcastInDim S1000000x64 ![0, 1] bcast_S1x64_S1000000x64_0_1 (broadcastInDim S1x64 ![1] bcast_S64_S1x64_1 a14))) (broadcastInDim S1000000x64 ![] bcast_S_S1000000x64 (constant S_ .f32 0x00000000#32)))) (broadcastInDim S100000x64 ![0, 1] bcast_S100000x1_S100000x64_0_1 (maximumf (Host.scatterAdd scatter_S100000x1_S1000000x1_S1000000x1_1_0_0_1 (broadcastInDim S100000x1 ![] bcast_S_S100000x1 (constant S_ .f32 0x00000000#32)) (broadcastInDim S1000000x1 ![0] bcast_S1000000_S1000000x1_0 a6) (broadcastInDim S1000000x1 ![] bcast_S_S1000000x1 (constant S_ .f32 0x3F800000#32))) (broadcastInDim S100000x1 ![] bcast_S_S100000x1 (constant S_ .f32 0x3F800000#32)))))⟩] concatenates_S100000x64_S100000x64_S100000x64_S100000x64_S100000x256_d1) a15) (broadcastInDim S100000x64 ![0, 1] bcast_S1x64_S100000x64_0_1 (broadcastInDim S1x64 ![1] bcast_S64_S1x64_1 a16))) (broadcastInDim S100000x64 ![] bcast_S_S100000x64 (constant S_ .f32 0x00000000#32))) a17) (broadcastInDim S100000x64 ![0, 1] bcast_S1x64_S100000x64_0_1 (broadcastInDim S1x64 ![1] bcast_S64_S1x64_1 a18))) (broadcastInDim S100000x64 ![] bcast_S_S100000x64 (constant S_ .f32 0x00000000#32))
      = Cert.Net.emb a0 a1 a2 a3 a4 a5 a6 a7 a8 a9 a10 a11 a12 a13 a14 a15 a16 a17 a18 := by
  rw [dense_user a0 a7 a8, dense_sess a1 a9 a10, dense_msg a2 a11 a12, dense_fb a3 a13 a14,
    agg_sess_eq (Cert.Spec.dense a1 a9 a10) a4, agg_msg_eq (Cert.Spec.dense a2 a11 a12) a5, agg_fb_eq (Cert.Spec.dense a3 a13 a14) a6,
    fuse_ref, dense_out]
  rfl

/-- The reference's logits term, over arrays of the literal shapes, is the network's logits. -/
theorem logits_term_eq :
    shapeCast S100000 (addf (Host.dotGeneral dot_S100000x64_S64x1_S100000x1_1_0_0_1_n_n none (maximumf (addf (Host.dotGeneral dot_S100000x64_S64x64_S100000x64_1_0_0_1_n_n none (maximumf (addf (Host.dotGeneral dot_S100000x256_S256x64_S100000x64_1_0_0_1_n_n none (concatenate S100000x256 1 [⟨S100000x64, (maximumf (addf (Host.dotGeneral dot_S100000x128_S128x64_S100000x64_1_0_0_1_n_n none a0 a7) (broadcastInDim S100000x64 ![0, 1] bcast_S1x64_S100000x64_0_1 (broadcastInDim S1x64 ![1] bcast_S64_S1x64_1 a8))) (broadcastInDim S100000x64 ![] bcast_S_S100000x64 (constant S_ .f32 0x00000000#32)))⟩, ⟨S100000x64, (Host.divf (Host.scatterAdd scatter_S100000x64_S500000x1_S500000x64_1_0_0_1 (broadcastInDim S100000x64 ![] bcast_S_S100000x64 (constant S_ .f32 0x00000000#32)) (broadcastInDim S500000x1 ![0] bcast_S500000_S500000x1_0 a4) (maximumf (addf (Host.dotGeneral dot_S500000x64_S64x64_S500000x64_1_0_0_1_n_n none a1 a9) (broadcastInDim S500000x64 ![0, 1] bcast_S1x64_S500000x64_0_1 (broadcastInDim S1x64 ![1] bcast_S64_S1x64_1 a10))) (broadcastInDim S500000x64 ![] bcast_S_S500000x64 (constant S_ .f32 0x00000000#32)))) (broadcastInDim S100000x64 ![0, 1] bcast_S100000x1_S100000x64_0_1 (maximumf (Host.scatterAdd scatter_S100000x1_S500000x1_S500000x1_1_0_0_1 (broadcastInDim S100000x1 ![] bcast_S_S100000x1 (constant S_ .f32 0x00000000#32)) (broadcastInDim S500000x1 ![0] bcast_S500000_S500000x1_0 a4) (broadcastInDim S500000x1 ![] bcast_S_S500000x1 (constant S_ .f32 0x3F800000#32))) (broadcastInDim S100000x1 ![] bcast_S_S100000x1 (constant S_ .f32 0x3F800000#32)))))⟩, ⟨S100000x64, (Host.divf (Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 a5) (maximumf (addf (Host.dotGeneral dot_S2000000x64_S64x64_S2000000x64_1_0_0_1_n_n none a2 a11) (broadcastInDim S2000000x64 ![0, 1] bcast_S1x64_S2000000x64_0_1 (broadcastInDim S1x64 ![1] bcast_S64_S1x64_1 a12))) (broadcastInDim S2000000x64 ![] bcast_S_S2000000x64 (constant S_ .f32 0x00000000#32)))) (broadcastInDim S100000x64 ![0, 1] bcast_S100000x1_S100000x64_0_1 (maximumf (Host.scatterAdd scatter_S100000x1_S2000000x1_S2000000x1_1_0_0_1 (broadcastInDim S100000x1 ![] bcast_S_S100000x1 (constant S_ .f32 0x00000000#32)) (broadcastInDim S2000000x1 ![0] bcast_S2000000_S2000000x1_0 a5) (broadcastInDim S2000000x1 ![] bcast_S_S2000000x1 (constant S_ .f32 0x3F800000#32))) (broadcastInDim S100000x1 ![] bcast_S_S100000x1 (constant S_ .f32 0x3F800000#32)))))⟩, ⟨S100000x64, (Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 a6) (maximumf (addf (Host.dotGeneral dot_S1000000x32_S32x64_S1000000x64_1_0_0_1_n_n none a3 a13) (broadcastInDim S1000000x64 ![0, 1] bcast_S1x64_S1000000x64_0_1 (broadcastInDim S1x64 ![1] bcast_S64_S1x64_1 a14))) (broadcastInDim S1000000x64 ![] bcast_S_S1000000x64 (constant S_ .f32 0x00000000#32)))) (broadcastInDim S100000x64 ![0, 1] bcast_S100000x1_S100000x64_0_1 (maximumf (Host.scatterAdd scatter_S100000x1_S1000000x1_S1000000x1_1_0_0_1 (broadcastInDim S100000x1 ![] bcast_S_S100000x1 (constant S_ .f32 0x00000000#32)) (broadcastInDim S1000000x1 ![0] bcast_S1000000_S1000000x1_0 a6) (broadcastInDim S1000000x1 ![] bcast_S_S1000000x1 (constant S_ .f32 0x3F800000#32))) (broadcastInDim S100000x1 ![] bcast_S_S100000x1 (constant S_ .f32 0x3F800000#32)))))⟩] concatenates_S100000x64_S100000x64_S100000x64_S100000x64_S100000x256_d1) a15) (broadcastInDim S100000x64 ![0, 1] bcast_S1x64_S100000x64_0_1 (broadcastInDim S1x64 ![1] bcast_S64_S1x64_1 a16))) (broadcastInDim S100000x64 ![] bcast_S_S100000x64 (constant S_ .f32 0x00000000#32))) a17) (broadcastInDim S100000x64 ![0, 1] bcast_S1x64_S100000x64_0_1 (broadcastInDim S1x64 ![1] bcast_S64_S1x64_1 a18))) (broadcastInDim S100000x64 ![] bcast_S_S100000x64 (constant S_ .f32 0x00000000#32))) a19) (broadcastInDim S100000x1 ![0, 1] bcast_S1x1_S100000x1_0_1 (broadcastInDim S1x1 ![1] bcast_S1_S1x1_1 a20))) shapeCasts_S100000x1_S100000
      = Cert.Net.logits a0 a1 a2 a3 a4 a5 a6 a7 a8 a9 a10 a11 a12 a13 a14 a15 a16 a17 a18 a19 a20 := by
  rw [emb_term_eq, logit_ref]
  rfl

end Terms

variable (m : (ℓ : Loc nD τ sig) → Buf (Elt Ideal) ℓ)

/-- The reference's second result is the embedding. -/
theorem ref_emb (c : Dev nD) :
    Cert.ReferenceIdeal.Value.res_main_v63 (F := Ideal) m c = Cert.Net.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold Cert.ReferenceIdeal.Value.res_main_v63
  exact emb_term_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- The reference's first result is the logits. -/
theorem ref_logits (c : Dev nD) :
    Cert.ReferenceIdeal.Value.res_main_v68 (F := Ideal) m c = Cert.Net.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.Value.res_main_v68
  exact logits_term_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

end Cert.ReferenceIdeal.Hand

end
-- ==== Proof.lean ====
/-
  The kernel program computes a small network over a user graph in five accelerator regions joined by host operations;
  the reference computes it with host operations only.

  Four dense layers with rectifier project the user, session, message and feedback rows to 64 features; the kernel
  tiles each over blocks of 20000 rows, the reference multiplies whole arrays, and entry by entry both are the maximum
  with zero of a sum of products plus a bias. The per-user means of the session, message and feedback projections are
  the same host operations in both programs. The reference lays the four 64-feature blocks side by side and multiplies
  by the 256-row fusing weight; the kernel multiplies each block by its 64 rows of that weight and adds the four
  products: a sum over 256 indices is the sum of its four stretches of 64, and addition of extended reals is
  associative and commutative, so no finiteness is needed. Two more layers give the embedding and one logit per user.
  Both programs' results are therefore the same functions (Net.emb, Net.logits) of the arguments; the kernel's are read
  off its generated frame, region by region, the reference's off its generated run. The idealization rewrote nothing.
-/
import proofs.«163695_j53068615909745_1_alg».proof.Defs
import proofs.«163695_j53068615909745_1_alg».proof.Proof.Gen.Kernel
import proofs.«163695_j53068615909745_1_alg».proof.Proof.Gen.Kernel.Skeleton
import proofs.«163695_j53068615909745_1_alg».proof.Proof.Gen.Kernel.Launch
import proofs.«163695_j53068615909745_1_alg».proof.Proof.Gen.Kernel.Points
import proofs.«163695_j53068615909745_1_alg».proof.Proof.Gen.Kernel.Frame
import proofs.«163695_j53068615909745_1_alg».proof.Proof.Gen.KernelIdeal
import proofs.«163695_j53068615909745_1_alg».proof.Proof.Gen.KernelIdeal.Skeleton
import proofs.«163695_j53068615909745_1_alg».proof.Proof.Gen.KernelIdeal.Launch
import proofs.«163695_j53068615909745_1_alg».proof.Proof.Gen.KernelIdeal.Points
import proofs.«163695_j53068615909745_1_alg».proof.Proof.Gen.KernelIdeal.Frame
import proofs.«163695_j53068615909745_1_alg».proof.Proof.Gen.ReferenceIdeal
import proofs.«163695_j53068615909745_1_alg».proof.Proof.Gen.Pre_finite_inputs
import Idealize.ShloMosaic.Adequacy
import Idealize.ShloMosaic.Init
import proofs.«163695_j53068615909745_1_alg».proof.Proof.KRun
import proofs.«163695_j53068615909745_1_alg».proof.Proof.KChain
import proofs.«163695_j53068615909745_1_alg».proof.Proof.RefValue

noncomputable section

namespace Cert.Proof

open Idealize.ShloMosaic Idealize.SL.Sem

/-- The kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 4000000 in
/-- Both programs end with the network's logits and embedding of the arguments. -/
theorem algebraic : Cert.algebraic_KernelIdeal_ReferenceIdeal := by
  intro m ρ m' ρ' _ hagree
  refine ⟨fun c => Cert.Net.logits (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (Cert.KernelIdeal.Hand.A14 m c) (Cert.KernelIdeal.Hand.A15 m c) (Cert.KernelIdeal.Hand.A16 m c) (Cert.KernelIdeal.Hand.A17 m c) (Cert.KernelIdeal.Hand.A18 m c) (Cert.KernelIdeal.Hand.A19 m c) (Cert.KernelIdeal.Hand.A20 m c),
    fun c => Cert.Net.emb (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (Cert.KernelIdeal.Hand.A14 m c) (Cert.KernelIdeal.Hand.A15 m c) (Cert.KernelIdeal.Hand.A16 m c) (Cert.KernelIdeal.Hand.A17 m c) (Cert.KernelIdeal.Hand.A18 m c), ?_, ?_⟩
  · refine (θ_run Cert.KernelIdeal.defs _ _).mono (fun r h c => ?_) (Cert.KernelIdeal.Gen.run_results m ρ)
    exact ⟨(h c).1.trans (Cert.KernelIdeal.Hand.result_logits m ρ c),
      (h c).2.1.trans (Cert.KernelIdeal.Hand.result_emb m ρ c), (h c).2.2⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18, e19, e20⟩ := hagree c
    refine ⟨(h c).1.trans ?_, (h c).2.1.trans ?_, (h c).2.2⟩
    · rw [Cert.ReferenceIdeal.Hand.ref_logits m' c, e0, e1, e2, e3, e4, e5, e6, e7, e8, e9, e10, e11, e12, e13, e14, e15, e16, e17, e18, e19, e20]
    · rw [Cert.ReferenceIdeal.Hand.ref_emb m' c, e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
